-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x262144x3 : Shape := ⟨3, ![16, 262144, 3]⟩
abbrev S_ : Shape := ⟨0, ![]⟩

class Facts : Prop where
  bcast_S_S16x262144x3 : S_.BroadcastsInDim S16x262144x3 (![] : Fin 0 → Fin S16x262144x3.rank)
  reducesTo_S16x262144x3_S_d0_1_2 : S16x262144x3.ReducesTo [0, 1, 2] S_
  h_S_ : 0 < S_.numel

variable [Facts]

def fn {F : FTy → Type} [FloatOps F] (main_arg0 : FVec F S16x262144x3 .f32) : IVec S_ 1 :=
  let main_v0 : FVec F S16x262144x3 .f32 := Host.absf main_arg0
  let main_cst : FVec F S_ .f32 := constant S_ .f32 0x7F800000#32
  let main_v1 : FVec F S16x262144x3 .f32 := broadcastInDim S16x262144x3 ![] bcast_S_S16x262144x3 main_cst
  let main_v2 : IVec S16x262144x3 1 := cmpf .olt main_v0 main_v1
  let main_c : IVec S_ 1 := constantI S_ 1 1#1
  let main_v3 : IVec S_ 1 := (fun x v => Host.reduce IntOp.andi x v reducesTo_S16x262144x3_S_d0_1_2 h_S_) main_v2 main_c
  main_v3
-- ==== Kernel.lean ====
abbrev S16x262144x3 : Shape := ⟨3, ![16, 262144, 3]⟩
abbrev S_ : Shape := ⟨0, ![]⟩
abbrev S16x3 : Shape := ⟨2, ![16, 3]⟩
abbrev S16x1x3 : Shape := ⟨3, ![16, 1, 3]⟩
abbrev S16x262144x1 : Shape := ⟨3, ![16, 262144, 1]⟩
abbrev S16x262144 : Shape := ⟨2, ![16, 262144]⟩
abbrev S16x13x4096 : Shape := ⟨3, ![16, 13, 4096]⟩
abbrev S1x4096x3 : Shape := ⟨3, ![1, 4096, 3]⟩
abbrev S1x4096x1 : Shape := ⟨3, ![1, 4096, 1]⟩
abbrev S1x13x1024 : Shape := ⟨3, ![1, 13, 1024]⟩
abbrev S13x1024 : Shape := ⟨2, ![13, 1024]⟩
abbrev S4096x3 : Shape := ⟨2, ![4096, 3]⟩
abbrev S4096x1 : Shape := ⟨2, ![4096, 1]⟩
abbrev S4096x13 : Shape := ⟨2, ![4096, 13]⟩
abbrev S4096x1024 : Shape := ⟨2, ![4096, 1024]⟩
abbrev S16x4096x13 : Shape := ⟨3, ![16, 4096, 13]⟩
abbrev S16x4096x1 : Shape := ⟨3, ![16, 4096, 1]⟩
abbrev S16x4096 : Shape := ⟨2, ![16, 4096]⟩
abbrev S16x4096x3 : Shape := ⟨3, ![16, 4096, 3]⟩
abbrev S16x4096x9 : Shape := ⟨3, ![16, 4096, 9]⟩
abbrev S16x4096x3x1 : Shape := ⟨4, ![16, 4096, 3, 1]⟩
abbrev S16x4096x1x3 : Shape := ⟨4, ![16, 4096, 1, 3]⟩
abbrev S16x4096x3x3 : Shape := ⟨4, ![16, 4096, 3, 3]⟩
abbrev S16x4096x12 : Shape := ⟨3, ![16, 4096, 12]⟩

abbrev nBuf : Space → Nat
  | .hbm => 84
  | .vmem => 7
  | .smem => 0
  | _ => 0

abbrev bufTy : (tb : Table) → Fin (tcTables nBuf tb) → BufTy
  | .hbm, ⟨0, _⟩ => ⟨S16x262144x3, .f32⟩
  | .hbm, ⟨1, _⟩ => ⟨S_, .f32⟩
  | .hbm, ⟨2, _⟩ => ⟨S16x3, .f32⟩
  | .hbm, ⟨3, _⟩ => ⟨S16x1x3, .f32⟩
  | .hbm, ⟨4, _⟩ => ⟨S_, .f32⟩
  | .hbm, ⟨5, _⟩ => ⟨S16x3, .f32⟩
  | .hbm, ⟨6, _⟩ => ⟨S16x1x3, .f32⟩
  | .hbm, ⟨7, _⟩ => ⟨S16x1x3, .f32⟩
  | .hbm, ⟨8, _⟩ => ⟨S_, .f32⟩
  | .hbm, ⟨9, _⟩ => ⟨S16x1x3, .f32⟩
  | .hbm, ⟨10, _⟩ => ⟨S16x1x3, .f32⟩
  | .hbm, ⟨11, _⟩ => ⟨S_, .f32⟩
  | .hbm, ⟨12, _⟩ => ⟨S16x1x3, .f32⟩
  | .hbm, ⟨13, _⟩ => ⟨S16x1x3, .f32⟩
  | .hbm, ⟨14, _⟩ => ⟨S16x262144x3, .f32⟩
  | .hbm, ⟨15, _⟩ => ⟨S16x262144x3, .f32⟩
  | .hbm, ⟨16, _⟩ => ⟨S16x262144x3, .f32⟩
  | .hbm, ⟨17, _⟩ => ⟨S16x262144x3, .f32⟩
  | .hbm, ⟨18, _⟩ => ⟨S16x262144x3, .f32⟩
  | .hbm, ⟨19, _⟩ => ⟨S_, .i32⟩
  | .hbm, ⟨20, _⟩ => ⟨S_, .i32⟩
  | .hbm, ⟨21, _⟩ => ⟨S_, .f32⟩
  | .hbm, ⟨22, _⟩ => ⟨S16x262144x3, .f32⟩
  | .hbm, ⟨23, _⟩ => ⟨S16x262144x3, .f32⟩
  | .hbm, ⟨24, _⟩ => ⟨S_, .f32⟩
  | .hbm, ⟨25, _⟩ => ⟨S16x262144x3, .f32⟩
  | .hbm, ⟨26, _⟩ => ⟨S16x262144x3, .f32⟩
  | .hbm, ⟨27, _⟩ => ⟨S16x262144x3, .i32⟩
  | .hbm, ⟨28, _⟩ => ⟨S16x262144x1, .i32⟩
  | .hbm, ⟨29, _⟩ => ⟨S16x262144, .i32⟩
  | .hbm, ⟨30, _⟩ => ⟨S_, .i32⟩
  | .hbm, ⟨31, _⟩ => ⟨S16x262144, .i32⟩
  | .hbm, ⟨32, _⟩ => ⟨S16x262144, .i32⟩
  | .hbm, ⟨33, _⟩ => ⟨S16x262144x1, .i32⟩
  | .hbm, ⟨34, _⟩ => ⟨S16x262144, .i32⟩
  | .hbm, ⟨35, _⟩ => ⟨S_, .i32⟩
  | .hbm, ⟨36, _⟩ => ⟨S16x262144, .i32⟩
  | .hbm, ⟨37, _⟩ => ⟨S16x262144, .i32⟩
  | .hbm, ⟨38, _⟩ => ⟨S16x262144, .i32⟩
  | .hbm, ⟨39, _⟩ => ⟨S16x262144x1, .i32⟩
  | .hbm, ⟨40, _⟩ => ⟨S16x262144, .i32⟩
  | .hbm, ⟨41, _⟩ => ⟨S16x262144, .i32⟩
  | .hbm, ⟨42, _⟩ => ⟨S16x262144x1, .i32⟩
  | .hbm, ⟨43, _⟩ => ⟨S16x13x4096, .f32⟩
  | .hbm, ⟨44, _⟩ => ⟨S16x4096x13, .f32⟩
  | .hbm, ⟨45, _⟩ => ⟨S16x4096x1, .f32⟩
  | .hbm, ⟨46, _⟩ => ⟨S16x4096, .f32⟩
  | .hbm, ⟨47, _⟩ => ⟨S16x4096x3, .f32⟩
  | .hbm, ⟨48, _⟩ => ⟨S16x4096x9, .f32⟩
  | .hbm, ⟨49, _⟩ => ⟨S_, .f32⟩
  | .hbm, ⟨50, _⟩ => ⟨S16x4096, .f32⟩
  | .hbm, ⟨51, _⟩ => ⟨S16x4096, .f32⟩
  | .hbm, ⟨52, _⟩ => ⟨S16x4096x1, .f32⟩
  | .hbm, ⟨53, _⟩ => ⟨S16x4096x3, .f32⟩
  | .hbm, ⟨54, _⟩ => ⟨S16x4096x3, .f32⟩
  | .hbm, ⟨55, _⟩ => ⟨S16x4096x3x1, .f32⟩
  | .hbm, ⟨56, _⟩ => ⟨S16x4096x1x3, .f32⟩
  | .hbm, ⟨57, _⟩ => ⟨S16x4096x3x3, .f32⟩
  | .hbm, ⟨58, _⟩ => ⟨S16x4096x3x3, .f32⟩
  | .hbm, ⟨59, _⟩ => ⟨S16x4096x3x3, .f32⟩
  | .hbm, ⟨60, _⟩ => ⟨S16x4096x9, .f32⟩
  | .hbm, ⟨61, _⟩ => ⟨S_, .f32⟩
  | .hbm, ⟨62, _⟩ => ⟨S16x4096, .f32⟩
  | .hbm, ⟨63, _⟩ => ⟨S16x4096, .f32⟩
  | .hbm, ⟨64, _⟩ => ⟨S_, .f32⟩
  | .hbm, ⟨65, _⟩ => ⟨S16x4096, .f32⟩
  | .hbm, ⟨66, _⟩ => ⟨S16x4096, .f32⟩
  | .hbm, ⟨67, _⟩ => ⟨S16x4096x1, .f32⟩
  | .hbm, ⟨68, _⟩ => ⟨S16x4096x1, .f32⟩
  | .hbm, ⟨69, _⟩ => ⟨S16x4096x9, .f32⟩
  | .hbm, ⟨70, _⟩ => ⟨S16x4096x9, .f32⟩
  | .hbm, ⟨71, _⟩ => ⟨S16x4096x9, .f32⟩
  | .hbm, ⟨72, _⟩ => ⟨S16x4096x9, .f32⟩
  | .hbm, ⟨73, _⟩ => ⟨S16x4096x9, .f32⟩
  | .hbm, ⟨74, _⟩ => ⟨S_, .f32⟩
  | .hbm, ⟨75, _⟩ => ⟨S16x4096, .f32⟩
  | .hbm, ⟨76, _⟩ => ⟨S16x4096, .i1⟩
  | .hbm, ⟨77, _⟩ => ⟨S16x4096x1, .i1⟩
  | .hbm, ⟨78, _⟩ => ⟨S16x4096x12, .f32⟩
  | .hbm, ⟨79, _⟩ => ⟨S_, .f32⟩
  | .hbm, ⟨80, _⟩ => ⟨S_, .f32⟩
  | .hbm, ⟨81, _⟩ => ⟨S16x4096x12, .i1⟩
  | .hbm, ⟨82, _⟩ => ⟨S16x4096x12, .f32⟩
  | .hbm, ⟨83, _⟩ => ⟨S16x4096x12, .f32⟩
  | .local _ .vmem, ⟨0, _⟩ => ⟨S1x4096x3, .f32⟩
  | .local _ .vmem, ⟨1, _⟩ => ⟨S1x4096x3, .f32⟩
  | .local _ .vmem, ⟨2, _⟩ => ⟨S1x4096x1, .i32⟩
  | .local _ .vmem, ⟨3, _⟩ => ⟨S1x4096x1, .i32⟩
  | .local _ .vmem, ⟨4, _⟩ => ⟨S1x13x1024, .f32⟩
  | .local _ .vmem, ⟨5, _⟩ => ⟨S1x13x1024, .f32⟩
  | .local _ .vmem, ⟨6, _⟩ => ⟨S13x1024, .f32⟩
  | _, _ => ⟨S16x262144x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_c_3 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_v47 : Ref sig .tc := ⟨.hbm, 63, rfl⟩
abbrev main_cst_8 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_9 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_10 : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 64], ![false, false, false]⟩

def k0_cond2 (i : grid0.Coords) : BitVec 1 :=
  let arg2 : BitVec 32 := BitVec.ofNat 32 (i 2).val
  let c63_i32 : BitVec 32 := 63#32
  let v37 : BitVec 1 := Scalar.cmpi .eq arg2 c63_i32
  let v38 : BitVec 32 := Scalar.extui v37
  let c0_i32_11 : BitVec 32 := 0#32
  let v39 : BitVec 1 := Scalar.cmpi .ne v38 c0_i32_11
  v39

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x13x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  reducesTo_S16x262144x3_S16x3_d1 : S16x262144x3.ReducesTo [1] S16x3
  h_S_ : 0 < S_.numel
  bcast_S16x3_S16x1x3_0_2 : S16x3.BroadcastsInDim S16x1x3 (![0, 2] : Fin 2 → Fin S16x1x3.rank)
  bcast_S_S16x1x3 : S_.BroadcastsInDim S16x1x3 (![] : Fin 0 → Fin S16x1x3.rank)
  bcast_S16x1x3_S16x262144x3_0_1_2 : S16x1x3.BroadcastsInDim S16x262144x3 (![0, 1, 2] : Fin 3 → Fin S16x262144x3.rank)
  bcast_S_S16x262144x3 : S_.BroadcastsInDim S16x262144x3 (![] : Fin 0 → Fin S16x262144x3.rank)
  slices_S16x262144x3_S16x262144x1_0_0_0 : S16x262144x3.Slices ![0, 0, 0] S16x262144x1
  shapeCasts_S16x262144x1_S16x262144 : S16x262144x1.ShapeCasts S16x262144
  bcast_S_S16x262144 : S_.BroadcastsInDim S16x262144 (![] : Fin 0 → Fin S16x262144.rank)
  slices_S16x262144x3_S16x262144x1_0_0_1 : S16x262144x3.Slices ![0, 0, 1] S16x262144x1
  slices_S16x262144x3_S16x262144x1_0_0_2 : S16x262144x3.Slices ![0, 0, 2] S16x262144x1
  bcast_S16x262144_S16x262144x1_0_1 : S16x262144.BroadcastsInDim S16x262144x1 (![0, 1] : Fin 2 → Fin S16x262144x1.rank)
  inb_S13x1024_S13x1024_0_0 : ∀ a, (![0, 0] : Fin 2 → Nat) a + S13x1024.size a ≤ S13x1024.size a
  h_S13x1024 : 0 < S13x1024.numel
  shapeCasts_S13x1024_S13x1024 : S13x1024.ShapeCasts S13x1024
  inb_S1x4096x3_S1x4096x3_0_0_0 : ∀ a, (![0, 0, 0] : Fin 3 → Nat) a + S1x4096x3.size a ≤ S1x4096x3.size a
  h_S1x4096x3 : 0 < S1x4096x3.numel
  shapeCasts_S1x4096x3_S4096x3 : S1x4096x3.ShapeCasts S4096x3
  slices_S4096x3_o0_0_S4096x1 : S4096x3.Slices ![0, 0] S4096x1
  slices_S4096x3_o0_1_S4096x1 : S4096x3.Slices ![0, 1] S4096x1
  slices_S4096x3_o0_2_S4096x1 : S4096x3.Slices ![0, 2] S4096x1
  concatenates_S4096x1_S4096x1_S4096x1_S4096x1_S4096x1_S4096x1_S4096x1_S4096x1_S4096x1_S4096x1_S4096x1_S4096x1_S4096x1_S4096x13_d1 : Shape.Concatenates [S4096x1, S4096x1, S4096x1, S4096x1, S4096x1, S4096x1, S4096x1, S4096x1, S4096x1, S4096x1, S4096x1, S4096x1, S4096x1] S4096x13 1
  bitsLt_bf16_f32 : FTy.bits .bf16 < FTy.bits .f32
  inb_S1x4096x1_S1x4096x1_0_0_0 : ∀ a, (![0, 0, 0] : Fin 3 → Nat) a + S1x4096x1.size a ≤ S1x4096x1.size a
  h_S1x4096x1 : 0 < S1x4096x1.numel
  shapeCasts_S1x4096x1_S4096x1 : S1x4096x1.ShapeCasts S4096x1
  iota_S4096x1024_d1_w32 : S4096x1024.Iotas .tc 32 [1]
  broadcasts_S4096x1_S4096x1024 : S4096x1.Broadcasts S4096x1024
  natLt_1_32 : 1 < 32
  inb_S1x13x1024_S1x13x1024_0_0_0 : ∀ a, (![0, 0, 0] : Fin 3 → Nat) a + S1x13x1024.size a ≤ S1x13x1024.size a
  h_S1x13x1024 : 0 < S1x13x1024.numel
  shapeCasts_S1x13x1024_S13x1024 : S1x13x1024.ShapeCasts S13x1024
  shapeCasts_S13x1024_S1x13x1024 : S13x1024.ShapeCasts S1x13x1024
  transposes_S16x13x4096_S16x4096x13_0_2_1 : S16x13x4096.Transposes [0, 2, 1] S16x4096x13
  slices_S16x4096x13_S16x4096x1_0_0_0 : S16x4096x13.Slices ![0, 0, 0] S16x4096x1
  shapeCasts_S16x4096x1_S16x4096 : S16x4096x1.ShapeCasts S16x4096
  slices_S16x4096x13_S16x4096x3_0_0_1 : S16x4096x13.Slices ![0, 0, 1] S16x4096x3
  slices_S16x4096x13_S16x4096x9_0_0_4 : S16x4096x13.Slices ![0, 0, 4] S16x4096x9
  bcast_S_S16x4096 : S_.BroadcastsInDim S16x4096 (![] : Fin 0 → Fin S16x4096.rank)
  bcast_S16x4096_S16x4096x1_0_1 : S16x4096.BroadcastsInDim S16x4096x1 (![0, 1] : Fin 2 → Fin S16x4096x1.rank)
  bcast_S16x4096x1_S16x4096x3_0_1_2 : S16x4096x1.BroadcastsInDim S16x4096x3 (![0, 1, 2] : Fin 3 → Fin S16x4096x3.rank)
  bcast_S16x4096x3_S16x4096x3x1_0_1_2 : S16x4096x3.BroadcastsInDim S16x4096x3x1 (![0, 1, 2] : Fin 3 → Fin S16x4096x3x1.rank)
  bcast_S16x4096x3_S16x4096x1x3_0_1_3 : S16x4096x3.BroadcastsInDim S16x4096x1x3 (![0, 1, 3] : Fin 3 → Fin S16x4096x1x3.rank)
  bcast_S16x4096x3x1_S16x4096x3x3_0_1_2_3 : S16x4096x3x1.BroadcastsInDim S16x4096x3x3 (![0, 1, 2, 3] : Fin 4 → Fin S16x4096x3x3.rank)
  bcast_S16x4096x1x3_S16x4096x3x3_0_1_2_3 : S16x4096x1x3.BroadcastsInDim S16x4096x3x3 (![0, 1, 2, 3] : Fin 4 → Fin S16x4096x3x3.rank)
  shapeCasts_S16x4096x3x3_S16x4096x9 : S16x4096x3x3.ShapeCasts S16x4096x9
  bcast_S16x4096x1_S16x4096x9_0_1_2 : S16x4096x1.BroadcastsInDim S16x4096x9 (![0, 1, 2] : Fin 3 → Fin S16x4096x9.rank)
  concatenates_S16x4096x3_S16x4096x9_S16x4096x12_d2 : Shape.Concatenates [S16x4096x3, S16x4096x9] S16x4096x12 2
  bcast_S16x4096x1_S16x4096x12_0_1_2 : S16x4096x1.BroadcastsInDim S16x4096x12 (![0, 1, 2] : Fin 3 → Fin S16x4096x12.rank)
  bcast_S_S16x4096x12 : S_.BroadcastsInDim S16x4096x12 (![] : Fin 0 → Fin S16x4096x12.rank)
  dot_S4096x13_S4096x1024_S13x1024_0_0_1_1_n_n_wf : DotDims.WF S4096x13 S4096x1024 S13x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x3.size a ≤ S16x262144x3.size a
  hwx0_0 : ∀ i : grid0.Coords, EltTy.bits .f32 = 32 ∨ (Rect.block (s := S16x262144x3) S1x4096x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x1.size a ≤ S16x262144x1.size a
  hwx0_1 : ∀ i : grid0.Coords, EltTy.bits .i32 = 32 ∨ (Rect.block (s := S16x262144x1) S1x4096x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x13x1024.size a ≤ S16x13x4096.size a
  hwx0_2 : ∀ i : grid0.Coords, EltTy.bits .f32 = 32 ∨ (Rect.block (s := S16x13x4096) S1x13x1024.size (cc0_transform_2 i) (hinb0_2 i)).WholeWords (EltTy.packing .f32)

variable [Facts₀]

def dot_S4096x13_S4096x1024_S13x1024_0_0_1_1_n_n : DotDims S4096x13 S4096x1024 S13x1024 where
  lhsContracting := [0]
  rhsContracting := [0]
  lhsNonContracting := [1]
  rhsNonContracting := [1]
  lhsBatch := []
  rhsBatch := []
  wf := dot_S4096x13_S4096x1024_S13x1024_0_0_1_1_n_n_wf

abbrev win0_0 : Pipeline.Window sig grid0 :=
  Pipeline.Window.ofSpec (Memref.whole main_arg0) S1x4096x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S1x4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x13x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x262144x3 : Shape := ⟨3, ![16, 262144, 3]⟩
abbrev S_ : Shape := ⟨0, ![]⟩
abbrev S16x3 : Shape := ⟨2, ![16, 3]⟩
abbrev S16x1x3 : Shape := ⟨3, ![16, 1, 3]⟩
abbrev S16x262144x1 : Shape := ⟨3, ![16, 262144, 1]⟩
abbrev S16x262144 : Shape := ⟨2, ![16, 262144]⟩
abbrev S16 : Shape := ⟨1, ![16]⟩
abbrev S16x1 : Shape := ⟨2, ![16, 1]⟩
abbrev S4194304 : Shape := ⟨1, ![4194304]⟩
abbrev S4194304x3 : Shape := ⟨2, ![4194304, 3]⟩
abbrev S65536 : Shape := ⟨1, ![65536]⟩
abbrev S4194304x1 : Shape := ⟨2, ![4194304, 1]⟩
abbrev S65536x3 : Shape := ⟨2, ![65536, 3]⟩
abbrev S4194304x3x1 : Shape := ⟨3, ![4194304, 3, 1]⟩
abbrev S4194304x1x3 : Shape := ⟨3, ![4194304, 1, 3]⟩
abbrev S4194304x3x3 : Shape := ⟨3, ![4194304, 3, 3]⟩
abbrev S4194304x9 : Shape := ⟨2, ![4194304, 9]⟩
abbrev S65536x9 : Shape := ⟨2, ![65536, 9]⟩
abbrev S65536x1 : Shape := ⟨2, ![65536, 1]⟩
abbrev S65536x3x1 : Shape := ⟨3, ![65536, 3, 1]⟩
abbrev S65536x1x3 : Shape := ⟨3, ![65536, 1, 3]⟩
abbrev S65536x3x3 : Shape := ⟨3, ![65536, 3, 3]⟩
abbrev S65536x12 : Shape := ⟨2, ![65536, 12]⟩
abbrev S16x4096x12 : Shape := ⟨3, ![16, 4096, 12]⟩

abbrev nBuf : Space → Nat
  | .hbm => 107
  | .vmem => 0
  | .smem => 0
  | _ => 0

abbrev bufTy : (tb : Table) → Fin (tcTables nBuf tb) → BufTy
  | .hbm, ⟨0, _⟩ => ⟨S16x262144x3, .f32⟩
  | .hbm, ⟨1, _⟩ => ⟨S_, .f32⟩
  | .hbm, ⟨2, _⟩ => ⟨S16x3, .f32⟩
  | .hbm, ⟨3, _⟩ => ⟨S16x1x3, .f32⟩
  | .hbm, ⟨4, _⟩ => ⟨S_, .f32⟩
  | .hbm, ⟨5, _⟩ => ⟨S16x3, .f32⟩
  | .hbm, ⟨6, _⟩ => ⟨S16x1x3, .f32⟩
  | .hbm, ⟨7, _⟩ => ⟨S16x1x3, .f32⟩
  | .hbm, ⟨8, _⟩ => ⟨S_, .f32⟩
  | .hbm, ⟨9, _⟩ => ⟨S16x1x3, .f32⟩
  | .hbm, ⟨10, _⟩ => ⟨S16x1x3, .f32⟩
  | .hbm, ⟨11, _⟩ => ⟨S_, .f32⟩
  | .hbm, ⟨12, _⟩ => ⟨S16x1x3, .f32⟩
  | .hbm, ⟨13, _⟩ => ⟨S16x1x3, .f32⟩
  | .hbm, ⟨14, _⟩ => ⟨S16x262144x3, .f32⟩
  | .hbm, ⟨15, _⟩ => ⟨S16x262144x3, .f32⟩
  | .hbm, ⟨16, _⟩ => ⟨S16x262144x3, .f32⟩
  | .hbm, ⟨17, _⟩ => ⟨S16x262144x3, .f32⟩
  | .hbm, ⟨18, _⟩ => ⟨S16x262144x3, .f32⟩
  | .hbm, ⟨19, _⟩ => ⟨S_, .i32⟩
  | .hbm, ⟨20, _⟩ => ⟨S_, .i32⟩
  | .hbm, ⟨21, _⟩ => ⟨S_, .f32⟩
  | .hbm, ⟨22, _⟩ => ⟨S16x262144x3, .f32⟩
  | .hbm, ⟨23, _⟩ => ⟨S16x262144x3, .f32⟩
  | .hbm, ⟨24, _⟩ => ⟨S_, .f32⟩
  | .hbm, ⟨25, _⟩ => ⟨S16x262144x3, .f32⟩
  | .hbm, ⟨26, _⟩ => ⟨S16x262144x3, .f32⟩
  | .hbm, ⟨27, _⟩ => ⟨S16x262144x3, .i32⟩
  | .hbm, ⟨28, _⟩ => ⟨S16x262144x1, .i32⟩
  | .hbm, ⟨29, _⟩ => ⟨S16x262144, .i32⟩
  | .hbm, ⟨30, _⟩ => ⟨S_, .i32⟩
  | .hbm, ⟨31, _⟩ => ⟨S16x262144, .i32⟩
  | .hbm, ⟨32, _⟩ => ⟨S16x262144, .i32⟩
  | .hbm, ⟨33, _⟩ => ⟨S16x262144x1, .i32⟩
  | .hbm, ⟨34, _⟩ => ⟨S16x262144, .i32⟩
  | .hbm, ⟨35, _⟩ => ⟨S_, .i32⟩
  | .hbm, ⟨36, _⟩ => ⟨S16x262144, .i32⟩
  | .hbm, ⟨37, _⟩ => ⟨S16x262144, .i32⟩
  | .hbm, ⟨38, _⟩ => ⟨S16x262144, .i32⟩
  | .hbm, ⟨39, _⟩ => ⟨S16x262144x1, .i32⟩
  | .hbm, ⟨40, _⟩ => ⟨S16x262144, .i32⟩
  | .hbm, ⟨41, _⟩ => ⟨S16x262144, .i32⟩
  | .hbm, ⟨42, _⟩ => ⟨S16, .i32⟩
  | .hbm, ⟨43, _⟩ => ⟨S16x1, .i32⟩
  | .hbm, ⟨44, _⟩ => ⟨S_, .i32⟩
  | .hbm, ⟨45, _⟩ => ⟨S16x1, .i32⟩
  | .hbm, ⟨46, _⟩ => ⟨S16x1, .i32⟩
  | .hbm, ⟨47, _⟩ => ⟨S16x262144, .i32⟩
  | .hbm, ⟨48, _⟩ => ⟨S16x262144, .i32⟩
  | .hbm, ⟨49, _⟩ => ⟨S4194304, .i32⟩
  | .hbm, ⟨50, _⟩ => ⟨S4194304x3, .f32⟩
  | .hbm, ⟨51, _⟩ => ⟨S_, .f32⟩
  | .hbm, ⟨52, _⟩ => ⟨S4194304, .f32⟩
  | .hbm, ⟨53, _⟩ => ⟨S_, .f32⟩
  | .hbm, ⟨54, _⟩ => ⟨S65536, .f32⟩
  | .hbm, ⟨55, _⟩ => ⟨S4194304x1, .i32⟩
  | .hbm, ⟨56, _⟩ => ⟨S65536, .f32⟩
  | .hbm, ⟨57, _⟩ => ⟨S_, .f32⟩
  | .hbm, ⟨58, _⟩ => ⟨S65536x3, .f32⟩
  | .hbm, ⟨59, _⟩ => ⟨S4194304x1, .i32⟩
  | .hbm, ⟨60, _⟩ => ⟨S65536x3, .f32⟩
  | .hbm, ⟨61, _⟩ => ⟨S4194304x3x1, .f32⟩
  | .hbm, ⟨62, _⟩ => ⟨S4194304x1x3, .f32⟩
  | .hbm, ⟨63, _⟩ => ⟨S4194304x3x3, .f32⟩
  | .hbm, ⟨64, _⟩ => ⟨S4194304x3x3, .f32⟩
  | .hbm, ⟨65, _⟩ => ⟨S4194304x3x3, .f32⟩
  | .hbm, ⟨66, _⟩ => ⟨S4194304x9, .f32⟩
  | .hbm, ⟨67, _⟩ => ⟨S_, .f32⟩
  | .hbm, ⟨68, _⟩ => ⟨S65536x9, .f32⟩
  | .hbm, ⟨69, _⟩ => ⟨S4194304x1, .i32⟩
  | .hbm, ⟨70, _⟩ => ⟨S65536x9, .f32⟩
  | .hbm, ⟨71, _⟩ => ⟨S_, .f32⟩
  | .hbm, ⟨72, _⟩ => ⟨S65536, .f32⟩
  | .hbm, ⟨73, _⟩ => ⟨S65536, .f32⟩
  | .hbm, ⟨74, _⟩ => ⟨S65536x1, .f32⟩
  | .hbm, ⟨75, _⟩ => ⟨S65536x3, .f32⟩
  | .hbm, ⟨76, _⟩ => ⟨S65536x3, .f32⟩
  | .hbm, ⟨77, _⟩ => ⟨S65536x3x1, .f32⟩
  | .hbm, ⟨78, _⟩ => ⟨S65536x1x3, .f32⟩
  | .hbm, ⟨79, _⟩ => ⟨S65536x3x3, .f32⟩
  | .hbm, ⟨80, _⟩ => ⟨S65536x3x3, .f32⟩
  | .hbm, ⟨81, _⟩ => ⟨S65536x3x3, .f32⟩
  | .hbm, ⟨82, _⟩ => ⟨S65536x9, .f32⟩
  | .hbm, ⟨83, _⟩ => ⟨S_, .f32⟩
  | .hbm, ⟨84, _⟩ => ⟨S65536, .f32⟩
  | .hbm, ⟨85, _⟩ => ⟨S65536, .f32⟩
  | .hbm, ⟨86, _⟩ => ⟨S_, .f32⟩
  | .hbm, ⟨87, _⟩ => ⟨S65536, .f32⟩
  | .hbm, ⟨88, _⟩ => ⟨S65536, .f32⟩
  | .hbm, ⟨89, _⟩ => ⟨S65536x1, .f32⟩
  | .hbm, ⟨90, _⟩ => ⟨S65536x1, .f32⟩
  | .hbm, ⟨91, _⟩ => ⟨S65536x9, .f32⟩
  | .hbm, ⟨92, _⟩ => ⟨S65536x9, .f32⟩
  | .hbm, ⟨93, _⟩ => ⟨S65536x9, .f32⟩
  | .hbm, ⟨94, _⟩ => ⟨S65536x9, .f32⟩
  | .hbm, ⟨95, _⟩ => ⟨S65536x9, .f32⟩
  | .hbm, ⟨96, _⟩ => ⟨S_, .f32⟩
  | .hbm, ⟨97, _⟩ => ⟨S65536, .f32⟩
  | .hbm, ⟨98, _⟩ => ⟨S65536, .i1⟩
  | .hbm, ⟨99, _⟩ => ⟨S65536x1, .i1⟩
  | .hbm, ⟨100, _⟩ => ⟨S65536x12, .f32⟩
  | .hbm, ⟨101, _⟩ => ⟨S_, .f32⟩
  | .hbm, ⟨102, _⟩ => ⟨S_, .f32⟩
  | .hbm, ⟨103, _⟩ => ⟨S65536x12, .i1⟩
  | .hbm, ⟨104, _⟩ => ⟨S65536x12, .f32⟩
  | .hbm, ⟨105, _⟩ => ⟨S65536x12, .f32⟩
  | .hbm, ⟨106, _⟩ => ⟨S16x4096x12, .f32⟩
  | _, _ => ⟨S16x262144x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_c_3 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_11 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_12 : Ref sig .tc := ⟨.hbm, 83, rfl⟩
abbrev main_v63 : Ref sig .tc := ⟨.hbm, 84, rfl⟩
abbrev main_v64 : Ref sig .tc := ⟨.hbm, 85, rfl⟩
abbrev main_cst_13 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_14 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_15 : Ref sig .tc := ⟨.hbm, 101, rfl⟩
abbrev main_call1_v0 : Ref sig .tc := ⟨.hbm, 102, rfl⟩
abbrev main_call1_v1 : Ref sig .tc := ⟨.hbm, 103, rfl⟩
abbrev main_call1_v2 : Ref sig .tc := ⟨.hbm, 104, rfl⟩
abbrev main_v78 : Ref sig .tc := ⟨.hbm, 105, rfl⟩
abbrev main_v79 : Ref sig .tc := ⟨.hbm, 106, rfl⟩

abbrev nD : Nat := 1
abbrev τ : Topo := Topo.v7x

variable {F : FTy → Type} [FloatOps F]

class Facts₀ : Prop where
  reducesTo_S16x262144x3_S16x3_d1 : S16x262144x3.ReducesTo [1] S16x3
  h_S_ : 0 < S_.numel
  bcast_S16x3_S16x1x3_0_2 : S16x3.BroadcastsInDim S16x1x3 (![0, 2] : Fin 2 → Fin S16x1x3.rank)
  bcast_S_S16x1x3 : S_.BroadcastsInDim S16x1x3 (![] : Fin 0 → Fin S16x1x3.rank)
  bcast_S16x1x3_S16x262144x3_0_1_2 : S16x1x3.BroadcastsInDim S16x262144x3 (![0, 1, 2] : Fin 3 → Fin S16x262144x3.rank)
  bcast_S_S16x262144x3 : S_.BroadcastsInDim S16x262144x3 (![] : Fin 0 → Fin S16x262144x3.rank)
  slices_S16x262144x3_S16x262144x1_0_0_0 : S16x262144x3.Slices ![0, 0, 0] S16x262144x1
  shapeCasts_S16x262144x1_S16x262144 : S16x262144x1.ShapeCasts S16x262144
  bcast_S_S16x262144 : S_.BroadcastsInDim S16x262144 (![] : Fin 0 → Fin S16x262144.rank)
  slices_S16x262144x3_S16x262144x1_0_0_1 : S16x262144x3.Slices ![0, 0, 1] S16x262144x1
  slices_S16x262144x3_S16x262144x1_0_0_2 : S16x262144x3.Slices ![0, 0, 2] S16x262144x1
  bcast_S16_S16x1_0 : S16.BroadcastsInDim S16x1 (![0] : Fin 1 → Fin S16x1.rank)
  bcast_S_S16x1 : S_.BroadcastsInDim S16x1 (![] : Fin 0 → Fin S16x1.rank)
  bcast_S16x1_S16x262144_0_1 : S16x1.BroadcastsInDim S16x262144 (![0, 1] : Fin 2 → Fin S16x262144.rank)
  shapeCasts_S16x262144_S4194304 : S16x262144.ShapeCasts S4194304
  shapeCasts_S16x262144x3_S4194304x3 : S16x262144x3.ShapeCasts S4194304x3
  bcast_S_S4194304 : S_.BroadcastsInDim S4194304 (![] : Fin 0 → Fin S4194304.rank)
  bcast_S_S65536 : S_.BroadcastsInDim S65536 (![] : Fin 0 → Fin S65536.rank)
  bcast_S4194304_S4194304x1_0 : S4194304.BroadcastsInDim S4194304x1 (![0] : Fin 1 → Fin S4194304x1.rank)
  bcast_S_S65536x3 : S_.BroadcastsInDim S65536x3 (![] : Fin 0 → Fin S65536x3.rank)
  bcast_S4194304x3_S4194304x3x1_0_1 : S4194304x3.BroadcastsInDim S4194304x3x1 (![0, 1] : Fin 2 → Fin S4194304x3x1.rank)
  bcast_S4194304x3_S4194304x1x3_0_2 : S4194304x3.BroadcastsInDim S4194304x1x3 (![0, 2] : Fin 2 → Fin S4194304x1x3.rank)
  bcast_S4194304x3x1_S4194304x3x3_0_1_2 : S4194304x3x1.BroadcastsInDim S4194304x3x3 (![0, 1, 2] : Fin 3 → Fin S4194304x3x3.rank)
  bcast_S4194304x1x3_S4194304x3x3_0_1_2 : S4194304x1x3.BroadcastsInDim S4194304x3x3 (![0, 1, 2] : Fin 3 → Fin S4194304x3x3.rank)
  shapeCasts_S4194304x3x3_S4194304x9 : S4194304x3x3.ShapeCasts S4194304x9
  bcast_S_S65536x9 : S_.BroadcastsInDim S65536x9 (![] : Fin 0 → Fin S65536x9.rank)
  bcast_S65536_S65536x1_0 : S65536.BroadcastsInDim S65536x1 (![0] : Fin 1 → Fin S65536x1.rank)
  bcast_S65536x1_S65536x3_0_1 : S65536x1.BroadcastsInDim S65536x3 (![0, 1] : Fin 2 → Fin S65536x3.rank)
  bcast_S65536x3_S65536x3x1_0_1 : S65536x3.BroadcastsInDim S65536x3x1 (![0, 1] : Fin 2 → Fin S65536x3x1.rank)
  bcast_S65536x3_S65536x1x3_0_2 : S65536x3.BroadcastsInDim S65536x1x3 (![0, 2] : Fin 2 → Fin S65536x1x3.rank)
  bcast_S65536x3x1_S65536x3x3_0_1_2 : S65536x3x1.BroadcastsInDim S65536x3x3 (![0, 1, 2] : Fin 3 → Fin S65536x3x3.rank)
  bcast_S65536x1x3_S65536x3x3_0_1_2 : S65536x1x3.BroadcastsInDim S65536x3x3 (![0, 1, 2] : Fin 3 → Fin S65536x3x3.rank)
  shapeCasts_S65536x3x3_S65536x9 : S65536x3x3.ShapeCasts S65536x9
  bcast_S65536x1_S65536x9_0_1 : S65536x1.BroadcastsInDim S65536x9 (![0, 1] : Fin 2 → Fin S65536x9.rank)
  concatenates_S65536x3_S65536x9_S65536x12_d1 : Shape.Concatenates [S65536x3, S65536x9] S65536x12 1
  bcast_S65536x1_S65536x12_0_1 : S65536x1.BroadcastsInDim S65536x12 (![0, 1] : Fin 2 → Fin S65536x12.rank)
  bcast_S_S65536x12 : S_.BroadcastsInDim S65536x12 (![] : Fin 0 → Fin S65536x12.rank)
  shapeCasts_S65536x12_S16x4096x12 : S65536x12.ShapeCasts S16x4096x12
  scatter_S65536_S4194304x1_S4194304_n_0_0_1_wf : ScatterDims.WF S65536 S4194304x1 S4194304 [] [0] [0] 1
  scatter_S65536x3_S4194304x1_S4194304x3_1_0_0_1_wf : ScatterDims.WF S65536x3 S4194304x1 S4194304x3 [1] [0] [0] 1
  scatter_S65536x9_S4194304x1_S4194304x9_1_0_0_1_wf : ScatterDims.WF S65536x9 S4194304x1 S4194304x9 [1] [0] [0] 1

variable [Facts₀]

def scatter_S65536_S4194304x1_S4194304_n_0_0_1 : ScatterDims S65536 S4194304x1 S4194304 where
  updateWindowDims := []
  insertedWindowDims := [0]
  scatterDimsToOperandDims := [0]
  indexVectorDim := 1
  wf := scatter_S65536_S4194304x1_S4194304_n_0_0_1_wf
def scatter_S65536x3_S4194304x1_S4194304x3_1_0_0_1 : ScatterDims S65536x3 S4194304x1 S4194304x3 where
  updateWindowDims := [1]
  insertedWindowDims := [0]
  scatterDimsToOperandDims := [0]
  indexVectorDim := 1
  wf := scatter_S65536x3_S4194304x1_S4194304x3_1_0_0_1_wf
def scatter_S65536x9_S4194304x1_S4194304x9_1_0_0_1 : ScatterDims S65536x9 S4194304x1 S4194304x9 where
  updateWindowDims := [1]
  insertedWindowDims := [0]
  scatterDimsToOperandDims := [0]
  indexVectorDim := 1
  wf := scatter_S65536x9_S4194304x1_S4194304x9_1_0_0_1_wf

class Facts : Prop extends Facts₀ where

variable [Facts]
-- ==== Proof.KCases.lean ====
/-
  What each of the body's three control cases leaves behind, as values. At the first tile of a voxel tile (case A) the
  accumulator is reset and then gains the tile's product: it ends at the accumulating store's value over the zero block.
  At a middle tile (case B) and at the last tile (case C) it ends at that value over what the tile before left; the last
  tile also writes the accumulator, re-shaped, to the output block.
-/
import proofs.«174219_j62826781606551_1_alg».proof.Proof.Gen.KernelIdeal.Frame
import Idealize.ShloMosaic.Lib.Pipeline.Value
import Idealize.ShloMosaic.Lib.Tactic

noncomputable section

open scoped BigOperators

namespace Cert.KernelIdeal.Cases

open Idealize.ShloMosaic Idealize.ShloMosaic.TcCoe Idealize.SL.Sem Cert.KernelIdeal Cert.KernelIdeal.Gen

variable {F : FTy → Type} [FloatOps F]

/-- The zero offsets of a whole block, rank 2 and rank 3, as constant functions. -/
theorem hz2 : (![0, 0] : Fin 2 → Nat) = fun _ => 0 := funext fun a => by fin_cases a <;> rfl
theorem hz3 : (![0, 0, 0] : Fin 3 → Nat) = fun _ => 0 := funext fun a => by fin_cases a <;> rfl

/-- Case A: the accumulator ends at the tile's product added to the zero block. -/
theorem sout_A (c : Dev nD) (i : grid0.Coords) (arg3 : Memref sig .tc .vmem S1x4096x3 .f32) (harg3 : arg3.IsWhole) (arg4 : Memref sig .tc .vmem S1x4096x1 .i32) (harg4 : arg4.IsWhole) (arg5 : Memref sig .tc .vmem S1x13x1024 .f32) (harg5 : arg5.IsWhole) (arg6 : Memref sig .tc .vmem S13x1024 .f32) (harg6 : arg6.IsWhole) (hc0 : cond0_0 i) (hc1 : ¬cond0_1 i)
    (x0 : Vec F S1x4096x3 .f32) (x1 : Vec F S1x4096x1 .i32) :
    sout0_A_0 c i arg3 harg3 arg4 harg4 arg5 harg5 arg6 harg6 hc0 hc1 x0 x1 = k0_pay3 i x0 x1 (k0_pay2 (F := F)) := by
  -- two whole-block pieces, the later (the accumulating store) covering: the read-back is its payload, whose
  -- accumulator argument is a covered read of the reset's zero block; the inputs are read whole.
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S13x1024) hz2, View.readCov_unit_zero (S := S13x1024) _ hz2]
  simp only [View.readAt_eq_ld, harg6.read_unread, harg3.read_unread, harg4.read_unread,
    View.readCov_unit_zero (S := S13x1024) _ hz2, View.ld_unit_zero (S := S13x1024) hz2,
    View.ld_unit_zero (S := S1x4096x3) hz3, View.ld_unit_zero (S := S1x4096x1) hz3, shapeCast_self]

/-- Case B: the accumulator ends at the tile's product added to what it held. -/
theorem sout_B (c : Dev nD) (i : grid0.Coords) (arg3 : Memref sig .tc .vmem S1x4096x3 .f32) (harg3 : arg3.IsWhole) (arg4 : Memref sig .tc .vmem S1x4096x1 .i32) (harg4 : arg4.IsWhole) (arg5 : Memref sig .tc .vmem S1x13x1024 .f32) (harg5 : arg5.IsWhole) (arg6 : Memref sig .tc .vmem S13x1024 .f32) (harg6 : arg6.IsWhole) (hc0 : ¬cond0_0 i) (hc1 : ¬cond0_1 i)
    (x0 : Vec F S1x4096x3 .f32) (x1 : Vec F S1x4096x1 .i32) (xs0 : Vec F S13x1024 .f32) :
    sout0_B_0 c i arg3 harg3 arg4 harg4 arg5 harg5 arg6 harg6 hc0 hc1 x0 x1 xs0 = k0_pay3 i x0 x1 xs0 := by
  -- one whole-block piece: the read-back is its payload, whose loads read the whole buffers.
  unfold sout0_B_0
  rw [View.read_writes_eq_canon _ _ _ (scover0_B_0 c i arg3 harg3 arg4 harg4 arg5 harg5 arg6 harg6 hc0 hc1 x0 x1 xs0)]
  unfold kernelRun0_B
  dsimp only
  rw [View.canon_unit_zero hz2]
  simp only [View.readAt_eq_ld, harg6.read_unread, harg3.read_unread, harg4.read_unread,
    View.readCov_unit_zero (S := S13x1024) _ hz2, View.ld_unit_zero (S := S13x1024) hz2,
    View.ld_unit_zero (S := S1x4096x3) hz3, View.ld_unit_zero (S := S1x4096x1) hz3, shapeCast_self]

/-- Case C: the accumulator ends as in case B, -/
theorem sout_C (c : Dev nD) (i : grid0.Coords) (arg3 : Memref sig .tc .vmem S1x4096x3 .f32) (harg3 : arg3.IsWhole) (arg4 : Memref sig .tc .vmem S1x4096x1 .i32) (harg4 : arg4.IsWhole) (arg5 : Memref sig .tc .vmem S1x13x1024 .f32) (harg5 : arg5.IsWhole) (arg6 : Memref sig .tc .vmem S13x1024 .f32) (harg6 : arg6.IsWhole) (hc0 : ¬cond0_0 i) (hc1 : cond0_1 i)
    (x0 : Vec F S1x4096x3 .f32) (x1 : Vec F S1x4096x1 .i32) (xs0 : Vec F S13x1024 .f32) :
    sout0_C_0 c i arg3 harg3 arg4 harg4 arg5 harg5 arg6 harg6 hc0 hc1 x0 x1 xs0 = k0_pay3 i x0 x1 xs0 := by
  -- one whole-block piece, as in case B.
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero hz2]
  simp only [View.readAt_eq_ld, harg6.read_unread, harg3.read_unread, harg4.read_unread,
    View.readCov_unit_zero (S := S13x1024) _ hz2, View.ld_unit_zero (S := S13x1024) hz2,
    View.ld_unit_zero (S := S1x4096x3) hz3, View.ld_unit_zero (S := S1x4096x1) hz3, shapeCast_self]

/-- and the output block holds it, re-shaped. -/
theorem out_C (c : Dev nD) (i : grid0.Coords) (arg3 : Memref sig .tc .vmem S1x4096x3 .f32) (harg3 : arg3.IsWhole) (arg4 : Memref sig .tc .vmem S1x4096x1 .i32) (harg4 : arg4.IsWhole) (arg5 : Memref sig .tc .vmem S1x13x1024 .f32) (harg5 : arg5.IsWhole) (arg6 : Memref sig .tc .vmem S13x1024 .f32) (harg6 : arg6.IsWhole) (hc0 : ¬cond0_0 i) (hc1 : cond0_1 i)
    (x0 : Vec F S1x4096x3 .f32) (x1 : Vec F S1x4096x1 .i32) (xs0 : Vec F S13x1024 .f32) :
    out0_C_2 c i arg3 harg3 arg4 harg4 arg5 harg5 arg6 harg6 hc0 hc1 x0 x1 xs0 = k0_pay1 (k0_pay3 i x0 x1 xs0) := by
  -- one whole-block piece of the output: the re-shape of a covered read of the accumulating store just made.
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero hz3]
  simp only [View.readAt_eq_ld, harg6.read_unread, harg3.read_unread, harg4.read_unread,
    View.readCov_unit_zero (S := S13x1024) _ hz2, View.ld_unit_zero (S := S13x1024) hz2,
    View.ld_unit_zero (S := S1x4096x3) hz3, View.ld_unit_zero (S := S1x4096x1) hz3, shapeCast_self]

end Cert.KernelIdeal.Cases

end
-- ==== Proof.Spec.lean ====
/-
  What both programs compute, as ONE function of the input `x : f32[16, 262144, 3]`, over the extended reals.

  Every point `(b, n)` of batch `b` has a voxel id `vox (b, n)`, a 32-bit word. For a batch `b`, a voxel `v < 4096`
  and a feature `f < 13` the STATISTIC `stat … b v f` is the sum, over the points `n` of the batch whose voxel id is
  the word `v`, of the point's feature `f`: feature `0` is the constant one, feature `1 + i` the coordinate `pᵢ`,
  feature `4 + 3 i + j` the product `pᵢ · pⱼ`. From a voxel's thirteen statistics `s` its twelve output numbers are
  (`cell`): with the count `c = s 0` and the means `μᵢ = s (1 + i) / max c 1`,
    output `k < 3` is `μₖ`, output `3 + 3 i + j` is `(s (4 + 3 i + j) − c · (μᵢ · μⱼ)) / max (c − 1) 1`,
  and all twelve are zero unless `c > 1`.
-/
import Idealize.ShloMosaic.PureOps.Ideal
import Idealize.ShloMosaic.Lib.ValueIdx

noncomputable section

open scoped BigOperators

namespace Cert.Voxel

open Idealize.ShloMosaic Idealize.ShloMosaic.ValueIdx

/-- The float `1.0` both programs write, as an extended real. -/
abbrev one : EReal := Ideal.ofBits .f32 0x3F800000#32
/-- The float `0.0` both programs write, as an extended real. -/
abbrev zero : EReal := Ideal.ofBits .f32 0x00000000#32

/-- The thirteen features of a point `p`: one, the three coordinates, the nine products in row-major order. -/
def feat (p : Fin 3 → EReal) (f : Fin 13) : EReal :=
  if f.val = 0 then one
  else if h : f.val < 4 then p ⟨f.val - 1, by omega⟩
  else p ⟨(f.val - 4) / 3, by have := f.isLt; omega⟩ * p ⟨(f.val - 4) % 3, Nat.mod_lt _ (by decide)⟩

/-- A point's three coordinates. -/
abbrev point (x : (⟨3, ![16, 262144, 3]⟩ : Shape).Idx → EReal) (b : Fin 16) (n : Fin 262144) : Fin 3 → EReal :=
  fun a => x (ix3 b n a)

/-- The statistic `f` of voxel `v` of batch `b`: the feature summed over the batch's points whose voxel id is `v`. -/
def stat (vox : (⟨2, ![16, 262144]⟩ : Shape).Idx → BitVec 32) (x : (⟨3, ![16, 262144, 3]⟩ : Shape).Idx → EReal)
    (b : Fin 16) (v : Fin 4096) (f : Fin 13) : EReal :=
  ∑ n : Fin 262144, if vox (ix2 b n) = BitVec.ofNat 32 v.val then feat (point x b n) f else 0

/-- Point `p` of batch `b`'s contribution to statistic `f` of the voxel whose id is the word `w` (zero past the last point). -/
def term (vox : (⟨2, ![16, 262144]⟩ : Shape).Idx → BitVec 32) (x : (⟨3, ![16, 262144, 3]⟩ : Shape).Idx → EReal)
    (b : Fin 16) (w : Nat) (f : Fin 13) (p : Nat) : EReal :=
  if h : p < 262144 then (if vox (ix2 b ⟨p, h⟩) = BitVec.ofNat 32 w then feat (point x b ⟨p, h⟩) f else 0) else 0

/-- The contributions of a batch's first `K` points: what the grid has accumulated after `K / 4096` tiles. -/
def upTo (vox : (⟨2, ![16, 262144]⟩ : Shape).Idx → BitVec 32) (x : (⟨3, ![16, 262144, 3]⟩ : Shape).Idx → EReal)
    (b : Fin 16) (w : Nat) (f : Fin 13) (K : Nat) : EReal :=
  ∑ p ∈ Finset.range K, term vox x b w f p

/-- All 262144 points' contributions are the statistic. -/
theorem stat_eq_upTo (vox : (⟨2, ![16, 262144]⟩ : Shape).Idx → BitVec 32) (x : (⟨3, ![16, 262144, 3]⟩ : Shape).Idx → EReal)
    (b : Fin 16) (v : Fin 4096) (f : Fin 13) : stat vox x b v f = upTo vox x b v.val f 262144 := by
  unfold stat upTo
  rw [Finset.sum_range]
  refine Finset.sum_congr rfl fun n _ => ?_
  unfold term
  rw [dif_pos n.isLt]

/-- The mean of coordinate `i` from a voxel's statistics. -/
def mean (s : Fin 13 → EReal) (i : Fin 3) : EReal :=
  Ideal.div (s ⟨1 + i.val, by omega⟩) (max (s 0) one)

/-- The covariance entry `(i, j)` from a voxel's statistics. -/
def cov (s : Fin 13 → EReal) (i j : Fin 3) : EReal :=
  Ideal.div (s ⟨4 + 3 * i.val + j.val, by omega⟩ - s 0 * (mean s i * mean s j)) (max (s 0 - one) one)

/-- The twelve numbers of a voxel before the validity mask: three means, nine covariance entries. -/
def dist (s : Fin 13 → EReal) (k : Fin 12) : EReal :=
  if h : k.val < 3 then mean s ⟨k.val, h⟩
  else cov s ⟨(k.val - 3) / 3, by have := k.isLt; omega⟩ ⟨(k.val - 3) % 3, Nat.mod_lt _ (by decide)⟩

/-- The twelve output numbers of a voxel: `dist` where the count exceeds one, zero elsewhere. -/
def cell (s : Fin 13 → EReal) (k : Fin 12) : EReal :=
  Scalar.select (Ideal.cmp .ogt (s 0) one) (dist s k) zero

/-- The result array `f32[16, 4096, 12]` as a function of the voxel ids and the input. -/
def result (vox : (⟨2, ![16, 262144]⟩ : Shape).Idx → BitVec 32) (x : (⟨3, ![16, 262144, 3]⟩ : Shape).Idx → EReal) :
    (⟨3, ![16, 4096, 12]⟩ : Shape).Idx → EReal :=
  fun i => cell (stat vox x (i 0) (i 1)) (i 2)

end Cert.Voxel

end
-- ==== Proof.KTile.lean ====
/-
  One grid point's arithmetic, read at an element. The body builds, for the 4096 points of its tile, the 13 features of
  each point and the one-hot row of its voxel id against the 1024 voxels of the point's voxel tile, and adds their
  product over the points to the accumulator: element `(f, j)` gains the sum of feature `f` over the tile's points whose
  voxel id is voxel `1024 · (voxel tile) + j`.
-/
import proofs.«174219_j62826781606551_1_alg».proof.Proof.Gen.KernelIdeal.Skeleton
import proofs.«174219_j62826781606551_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Tile

open Idealize.ShloMosaic Idealize.ShloMosaic.ValueIdx Cert.KernelIdeal Cert.KernelIdeal.Gen

/-- What one tile adds to statistic `f` of the voxel with number `j` inside voxel tile `vt`: the feature summed over the
    tile's points whose voxel id is `1024 · vt + j`. -/
def part (vt : Nat) (x0 : Vec Ideal S1x4096x3 .f32) (x1 : Vec Ideal S1x4096x1 .i32) (f : Fin 13) (j : Fin 1024) : EReal :=
  ∑ r : Fin 4096, if (x1 (ix3 0 r 0) : BitVec 32) = BitVec.ofNat 32 (vt * 1024 + j.val)
    then Cert.Voxel.feat (fun a => (x0 (ix3 0 r a) : EReal)) f else 0

/-- The product contracts axis 0 of both operands: the left operand's row is the contraction position … -/
theorem lhs_ax0 (jj : S13x1024.Idx) (k : dot_S4096x13_S4096x1024_S13x1024_0_0_1_1_n_n.contr.Idx) :
    (dot_S4096x13_S4096x1024_S13x1024_0_0_1_1_n_n.lhsIdx jj k 0).val = (k ⟨0, by decide⟩).val :=
  dot_S4096x13_S4096x1024_S13x1024_0_0_1_1_n_n.lhsIdx_val_of_single rfl jj k

/-- … and so is the right operand's row; -/
theorem rhs_ax0 (jj : S13x1024.Idx) (k : dot_S4096x13_S4096x1024_S13x1024_0_0_1_1_n_n.contr.Idx) :
    (dot_S4096x13_S4096x1024_S13x1024_0_0_1_1_n_n.rhsIdx jj k 0).val = (k ⟨0, by decide⟩).val :=
  dot_S4096x13_S4096x1024_S13x1024_0_0_1_1_n_n.rhsIdx_val_of_single rfl jj k

/-- the left operand's column is the result's row … -/
theorem lhs_ax1 (jj : S13x1024.Idx) (k : dot_S4096x13_S4096x1024_S13x1024_0_0_1_1_n_n.contr.Idx) :
    (dot_S4096x13_S4096x1024_S13x1024_0_0_1_1_n_n.lhsIdx jj k 1).val = (jj 0).val := by
  simp [DotDims.lhsIdx, dot_S4096x13_S4096x1024_S13x1024_0_0_1_1_n_n]
  rfl

/-- … and the right operand's column the result's column. -/
theorem rhs_ax1 (jj : S13x1024.Idx) (k : dot_S4096x13_S4096x1024_S13x1024_0_0_1_1_n_n.contr.Idx) :
    (dot_S4096x13_S4096x1024_S13x1024_0_0_1_1_n_n.rhsIdx jj k 1).val = (jj 1).val := by
  simp [DotDims.rhsIdx, dot_S4096x13_S4096x1024_S13x1024_0_0_1_1_n_n]
  rfl

/-- The product into the zero accumulator at `(f, j)`: the sum over the 4096 rows `r` of left `(r, f)` times right `(r, j)`. -/
theorem matmul_at (lhs : FVec Ideal S4096x13 .bf16) (rhs : FVec Ideal S4096x1024 .bf16) (f : Fin 13) (j : Fin 1024) :
    (matmul dot_S4096x13_S4096x1024_S13x1024_0_0_1_1_n_n none lhs rhs (constant (F := Ideal) S13x1024 .f32 0x00000000#32) (ix2 f j) : EReal)
      = ∑ r : Fin 4096, (lhs (ix2 r f) : EReal) * (rhs (ix2 r j) : EReal) := by
  show FloatOps.matmul _ none lhs rhs _ (ix2 f j) = _
  rw [Ideal.matmul_constant_zero_apply,
    ← Equiv.sum_comp (contrEquiv1 dot_S4096x13_S4096x1024_S13x1024_0_0_1_1_n_n 4096 rfl rfl).symm]
  refine Finset.sum_congr rfl fun r _ => ?_
  have c := contrEquiv1_symm_val dot_S4096x13_S4096x1024_S13x1024_0_0_1_1_n_n 4096 rfl rfl r
  have l : dot_S4096x13_S4096x1024_S13x1024_0_0_1_1_n_n.lhsIdx (ix2 f j)
      ((contrEquiv1 dot_S4096x13_S4096x1024_S13x1024_0_0_1_1_n_n 4096 rfl rfl).symm r) = ix2 r f := by
    funext ax; apply Fin.ext
    match ax with
    | ⟨0, _⟩ => exact (lhs_ax0 _ _).trans c
    | ⟨1, _⟩ => exact lhs_ax1 _ _
  have rr : dot_S4096x13_S4096x1024_S13x1024_0_0_1_1_n_n.rhsIdx (ix2 f j)
      ((contrEquiv1 dot_S4096x13_S4096x1024_S13x1024_0_0_1_1_n_n 4096 rfl rfl).symm r) = ix2 r j := by
    funext ax; apply Fin.ext
    match ax with
    | ⟨0, _⟩ => exact (rhs_ax0 _ _).trans c
    | ⟨1, _⟩ => exact rhs_ax1 _ _
  rw [l, rr]

/-- On 32-bit words, `x − vt · 1024 = j` exactly when `x = vt · 1024 + j` (subtraction undoes addition, and the word of a
    sum or product of naturals is the sum or product of the words). -/
theorem word_eq_iff (x : BitVec 32) (vt j : Nat) :
    (x - BitVec.ofNat 32 vt * 1024#32 = BitVec.ofNat 32 j) ↔ (x = BitVec.ofNat 32 (vt * 1024 + j)) := by
  rw [BitVec.sub_eq_iff_eq_add, BitVec.ofNat_add, BitVec.ofNat_mul, BitVec.add_comm]

/-- The bit of an equality test, widened to a word and read as a signed integer, is the number 1 or 0. -/
theorem cmpi_eq_val (a b : BitVec 32) :
    (FloatOps.sitofp (F := Ideal) .f32 ((IntOp.cmpi .eq a b).setWidth 32) : EReal) = if a = b then (1 : EReal) else 0 := by
  by_cases h : a = b
  · subst h; simp [IntOp.cmpi, FloatOps.sitofp]
  · have hb : (a == b) = false := by simpa using h
    simp [IntOp.cmpi, FloatOps.sitofp, hb, h]

/-- Row `r`, column `j` of the one-hot block: 1 when point `r`'s voxel id is voxel `1024 · vt + j`, else 0. -/
theorem onehot_apply (vt : Nat) (x1 : Vec Ideal S1x4096x1 .i32) (r : Fin 4096) (j : Fin 1024)
    (h1 : S1x4096x1.ShapeCasts S4096x1) (h2 : S4096x1.Broadcasts S4096x1024) (h3 : S4096x1024.Iotas .tc 32 [1])
    (h4 : 1 < 32) (h5 : FTy.bf16.bits < FTy.f32.bits) :
    ((truncf .bf16 (sitofp (F := Ideal) .f32 (extui 32 (cmpi .eq (broadcastTo S4096x1024
      (subi (shapeCast S4096x1 x1 h1) (broadcast S4096x1 (Scalar.muli (BitVec.ofNat 32 vt) 1024#32))) h2)
      (iota .tc S4096x1024 32 [1] h3)) h4)) h5) (ix2 r j) : EReal)
      = if (x1 (ix3 0 r 0) : BitVec 32) = BitVec.ofNat 32 (vt * 1024 + j.val) then 1 else 0 := by
  rw [truncf_apply, sitofp_apply, extui_apply]
  have e1 : broadcastTo S4096x1024
      (subi (shapeCast S4096x1 x1 h1) (broadcast S4096x1 (Scalar.muli (BitVec.ofNat 32 vt) 1024#32))) h2 (ix2 r j)
      = (x1 (ix3 0 r 0) : BitVec 32) - BitVec.ofNat 32 vt * 1024#32 := by
    refine (broadcastTo_apply _ h2 (ix2 r j) (ix2 r (0 : Fin 1)) fun a => ?_).trans ?_
    · match a with
      | ⟨0, _⟩ => rfl
      | ⟨1, _⟩ => rfl
    · show IntOp.subi (shapeCast S4096x1 x1 h1 (ix2 r 0)) _ = _
      rw [shapeCast_1ab_ab_apply]
      rfl
  have e2 : iota .tc S4096x1024 32 [1] h3 (ix2 r j) = BitVec.ofNat 32 j.val := iota_single_apply _ _ _ _ h3 _
  show FloatOps.sitofp (F := Ideal) .f32 ((IntOp.cmpi .eq _ _).setWidth 32) = _
  rw [e1, e2]
  rw [cmpi_eq_val]
  exact if_congr (word_eq_iff _ vt j.val) rfl rfl

/-- Column `o` of the point block: row `r` of the slice is coordinate `o` of point `r`. -/
theorem col_apply (x0 : Vec Ideal S1x4096x3 .f32) (o : Nat) (ho : o < 3) (hc : S1x4096x3.ShapeCasts S4096x3)
    (hs : S4096x3.Slices ![0, o] S4096x1) (r : Fin 4096) :
    (extractStridedSlice S4096x1 ![0, o] (shapeCast S4096x3 x0 hc) hs (ix2 r 0) : EReal) = x0 (ix3 0 r ⟨o, ho⟩) := by
  refine (extractStridedSlice_apply _ _ hs (ix2 r 0) (ix2 r ⟨o, ho⟩) fun a => ?_).trans (shapeCast_1ab_ab_apply x0 hc r ⟨o, ho⟩)
  match a with
  | ⟨0, _⟩ => show r.val = 0 + r.val; omega
  | ⟨1, _⟩ => show o = o + 0; omega

/-- Thirteen one-column pieces laid side by side: column `f` of the result is piece `f`. -/
theorem concat13_apply (c0 c1 c2 c3 c4 c5 c6 c7 c8 c9 c10 c11 c12 : S4096x1.Idx → EReal)
    (h : Shape.Concatenates [S4096x1, S4096x1, S4096x1, S4096x1, S4096x1, S4096x1, S4096x1, S4096x1, S4096x1, S4096x1, S4096x1, S4096x1, S4096x1] S4096x13 1) (r : Fin 4096) (f : Fin 13) :
    concatenate S4096x13 1 [⟨S4096x1, c0⟩, ⟨S4096x1, c1⟩, ⟨S4096x1, c2⟩, ⟨S4096x1, c3⟩, ⟨S4096x1, c4⟩, ⟨S4096x1, c5⟩, ⟨S4096x1, c6⟩, ⟨S4096x1, c7⟩, ⟨S4096x1, c8⟩, ⟨S4096x1, c9⟩, ⟨S4096x1, c10⟩, ⟨S4096x1, c11⟩, ⟨S4096x1, c12⟩] h (ix2 r f)
      = (![c0, c1, c2, c3, c4, c5, c6, c7, c8, c9, c10, c11, c12] f) (ix2 r 0) := by
  refine concatenate_ofFn_unit_apply (t := S4096x13) (s₁ := S4096x1) 1 ![c0, c1, c2, c3, c4, c5, c6, c7, c8, c9, c10, c11, c12] h rfl rfl (ix2 r f) f rfl (ix2 r 0) fun b hb => ?_
  match b with
  | ⟨0, _⟩ => rfl
  | ⟨1, _⟩ => exact absurd rfl hb

/-- Row `r`, column `f` of the feature block is feature `f` of point `r`. -/
theorem feats_apply (x0 : Vec Ideal S1x4096x3 .f32) (hc : S1x4096x3.ShapeCasts S4096x3)
    (hs0 : S4096x3.Slices ![0, 0] S4096x1) (hs1 : S4096x3.Slices ![0, 1] S4096x1) (hs2 : S4096x3.Slices ![0, 2] S4096x1)
    (hcat : Shape.Concatenates [S4096x1, S4096x1, S4096x1, S4096x1, S4096x1, S4096x1, S4096x1, S4096x1, S4096x1, S4096x1, S4096x1, S4096x1, S4096x1] S4096x13 1) (hb : FTy.bf16.bits < FTy.f32.bits) (r : Fin 4096) (f : Fin 13) :
    ((truncf .bf16 (concatenate S4096x13 1
      [⟨S4096x1, broadcast S4096x1 (Scalar.ofBits (F := Ideal) .f32 0x3F800000#32)⟩,
      ⟨S4096x1, extractStridedSlice S4096x1 ![0, 0] (shapeCast S4096x3 x0 hc) hs0⟩,
      ⟨S4096x1, extractStridedSlice S4096x1 ![0, 1] (shapeCast S4096x3 x0 hc) hs1⟩,
      ⟨S4096x1, extractStridedSlice S4096x1 ![0, 2] (shapeCast S4096x3 x0 hc) hs2⟩,
      ⟨S4096x1, mulf (F := Ideal) (extractStridedSlice S4096x1 ![0, 0] (shapeCast S4096x3 x0 hc) hs0) (extractStridedSlice S4096x1 ![0, 0] (shapeCast S4096x3 x0 hc) hs0)⟩,
      ⟨S4096x1, mulf (F := Ideal) (extractStridedSlice S4096x1 ![0, 0] (shapeCast S4096x3 x0 hc) hs0) (extractStridedSlice S4096x1 ![0, 1] (shapeCast S4096x3 x0 hc) hs1)⟩,
      ⟨S4096x1, mulf (F := Ideal) (extractStridedSlice S4096x1 ![0, 0] (shapeCast S4096x3 x0 hc) hs0) (extractStridedSlice S4096x1 ![0, 2] (shapeCast S4096x3 x0 hc) hs2)⟩,
      ⟨S4096x1, mulf (F := Ideal) (extractStridedSlice S4096x1 ![0, 1] (shapeCast S4096x3 x0 hc) hs1) (extractStridedSlice S4096x1 ![0, 0] (shapeCast S4096x3 x0 hc) hs0)⟩,
      ⟨S4096x1, mulf (F := Ideal) (extractStridedSlice S4096x1 ![0, 1] (shapeCast S4096x3 x0 hc) hs1) (extractStridedSlice S4096x1 ![0, 1] (shapeCast S4096x3 x0 hc) hs1)⟩,
      ⟨S4096x1, mulf (F := Ideal) (extractStridedSlice S4096x1 ![0, 1] (shapeCast S4096x3 x0 hc) hs1) (extractStridedSlice S4096x1 ![0, 2] (shapeCast S4096x3 x0 hc) hs2)⟩,
      ⟨S4096x1, mulf (F := Ideal) (extractStridedSlice S4096x1 ![0, 2] (shapeCast S4096x3 x0 hc) hs2) (extractStridedSlice S4096x1 ![0, 0] (shapeCast S4096x3 x0 hc) hs0)⟩,
      ⟨S4096x1, mulf (F := Ideal) (extractStridedSlice S4096x1 ![0, 2] (shapeCast S4096x3 x0 hc) hs2) (extractStridedSlice S4096x1 ![0, 1] (shapeCast S4096x3 x0 hc) hs1)⟩,
      ⟨S4096x1, mulf (F := Ideal) (extractStridedSlice S4096x1 ![0, 2] (shapeCast S4096x3 x0 hc) hs2) (extractStridedSlice S4096x1 ![0, 2] (shapeCast S4096x3 x0 hc) hs2)⟩] hcat) hb : FVec Ideal S4096x13 .bf16) (ix2 r f) : EReal)
      = Cert.Voxel.feat (fun a => (x0 (ix3 0 r a) : EReal)) f := by
  rw [truncf_apply]
  refine (concat13_apply _ _ _ _ _ _ _ _ _ _ _ _ _ hcat r f).trans ?_
  have e0 := col_apply x0 0 (by decide) hc hs0 r
  have e1 := col_apply x0 1 (by decide) hc hs1 r
  have e2 := col_apply x0 2 (by decide) hc hs2 r
  fin_cases f
  · rfl
  · exact e0
  · exact e1
  · exact e2
  · exact (congrArg₂ (· * ·) e0 e0)
  · exact (congrArg₂ (· * ·) e0 e1)
  · exact (congrArg₂ (· * ·) e0 e2)
  · exact (congrArg₂ (· * ·) e1 e0)
  · exact (congrArg₂ (· * ·) e1 e1)
  · exact (congrArg₂ (· * ·) e1 e2)
  · exact (congrArg₂ (· * ·) e2 e0)
  · exact (congrArg₂ (· * ·) e2 e1)
  · exact (congrArg₂ (· * ·) e2 e2)

/-- The accumulating store's value at `(f, j)`: the accumulator there plus the tile's part. -/
theorem pay3_apply (i : grid0.Coords) (x0 : Vec Ideal S1x4096x3 .f32) (x1 : Vec Ideal S1x4096x1 .i32)
    (acc : Vec Ideal S13x1024 .f32) (f : Fin 13) (j : Fin 1024) :
    (k0_pay3 (F := Ideal) i x0 x1 acc (ix2 f j) : EReal) = (acc (ix2 f j) : EReal) + part (i 1).val x0 x1 f j := by
  unfold k0_pay3
  refine (congrFun (shapeCast_self _ _) (ix2 f j)).trans ?_
  refine (addf_apply _ _ _).trans ?_
  refine congrArg (fun t : EReal => (acc (ix2 f j) : EReal) + t) ?_
  refine (matmul_at _ _ f j).trans ?_
  unfold part
  refine Finset.sum_congr rfl fun r _ => ?_
  refine (congrArg₂ (· * ·) (feats_apply x0 _ _ _ _ _ _ r f) (onehot_apply (i 1).val x1 r j _ _ _ _ _)).trans ?_
  by_cases h : (x1 (ix3 0 r 0) : BitVec 32) = BitVec.ofNat 32 ((i 1).val * 1024 + j.val)
  · rw [if_pos h, if_pos h, mul_one]
  · rw [if_neg h, if_neg h, mul_zero]

/-- The reset stores zeros. -/
theorem pay2_apply (y : S13x1024.Idx) : (k0_pay2 (F := Ideal) y : EReal) = 0 := by
  unfold k0_pay2
  rw [shapeCast_self]
  exact Ideal.ofBits_zero_f32

/-- The write to the output block is the accumulator, re-shaped. -/
theorem pay1_apply (v : Vec Ideal S13x1024 .f32) (f : Fin 13) (j : Fin 1024) :
    (k0_pay1 (F := Ideal) v (ix3 0 f j) : EReal) = (v (ix2 f j) : EReal) := by
  unfold k0_pay1
  exact shapeCast_ab_1ab_apply v _ 0 f j

end Cert.KernelIdeal.Tile

end
-- ==== Proof.Head.lean ====
/-
  The voxel id of every point, as both programs compute it before the reduction (the same StableHLO lines in both):
  per batch the minimum and maximum of each coordinate over the points, the voxel edge `(max − min) / 16 + ε`, the cell
  `clamp (⌊(x − min) / edge⌋, 0, 15)` of each coordinate converted to a 32-bit integer, and the three cells packed as
  `256 · c₀ + 16 · c₁ + c₂`. The clamp bounds every cell by 15, so every voxel id is below 4096 (`voxId_lt`).
-/
import Idealize.ShloMosaic.PureOps.Ideal
import Idealize.ShloMosaic.Lib.ValueIdx

noncomputable section

namespace Cert.Voxel

open Idealize.ShloMosaic Idealize.ShloMosaic.ValueIdx

abbrev S_ : Shape := ⟨0, ![]⟩
abbrev S16x3 : Shape := ⟨2, ![16, 3]⟩
abbrev S16x1x3 : Shape := ⟨3, ![16, 1, 3]⟩
abbrev S16x262144x3 : Shape := ⟨3, ![16, 262144, 3]⟩
abbrev S16x262144x1 : Shape := ⟨3, ![16, 262144, 1]⟩
abbrev S16x262144 : Shape := ⟨2, ![16, 262144]⟩

/-- Per batch and coordinate, the least value over the points, kept as a `[16, 1, 3]` array. -/
def lo (x : FVec Ideal S16x262144x3 .f32) : FVec Ideal S16x1x3 .f32 :=
  broadcastInDim S16x1x3 ![0, 2] (by decide)
    (Host.reduce FloatOps.minimumf x (constant (F := Ideal) S_ .f32 0x7F800000#32) (by decide : S16x262144x3.ReducesTo [1] S16x3) (by decide))

/-- Per batch and coordinate, the greatest value over the points. -/
def hi (x : FVec Ideal S16x262144x3 .f32) : FVec Ideal S16x1x3 .f32 :=
  broadcastInDim S16x1x3 ![0, 2] (by decide)
    (Host.reduce FloatOps.maximumf x (constant (F := Ideal) S_ .f32 0xFF800000#32) (by decide : S16x262144x3.ReducesTo [1] S16x3) (by decide))

/-- The voxel edge per batch and coordinate: `(max − min) / 16 + ε`. -/
def edge (x : FVec Ideal S16x262144x3 .f32) : FVec Ideal S16x1x3 .f32 :=
  addf (Host.divf (subf (hi x) (lo x)) (broadcastInDim S16x1x3 ![] (by decide) (constant (F := Ideal) S_ .f32 0x41800000#32)))
    (broadcastInDim S16x1x3 ![] (by decide) (constant (F := Ideal) S_ .f32 0x358637BD#32))

/-- Each coordinate's cell as a float: `⌊(x − min) / edge⌋` clamped to `[0, 15]`. -/
def clamped (x : FVec Ideal S16x262144x3 .f32) : FVec Ideal S16x262144x3 .f32 :=
  minimumf (broadcastInDim S16x262144x3 ![] (by decide) (sitofp (F := Ideal) .f32 (constantI S_ 32 15#32)))
    (maximumf (broadcastInDim S16x262144x3 ![] (by decide) (sitofp (F := Ideal) .f32 (constantI S_ 32 0#32)))
      (Host.floor (Host.divf (subf x (broadcastInDim S16x262144x3 ![0, 1, 2] (by decide) (lo x)))
        (broadcastInDim S16x262144x3 ![0, 1, 2] (by decide) (edge x)))))

/-- Each coordinate's cell as a 32-bit integer. -/
def cells (x : FVec Ideal S16x262144x3 .f32) : IVec S16x262144x3 32 := fptosi 32 (clamped x)

/-- The cells of coordinate `a`, one per point. -/
def cellsOf (x : FVec Ideal S16x262144x3 .f32) (a : Nat) (h : S16x262144x3.Slices ![0, 0, a] S16x262144x1) : IVec S16x262144 32 :=
  shapeCast S16x262144 (extractStridedSlice S16x262144x1 ![0, 0, a] (cells x) h) (by decide)

/-- The voxel id of every point: `256 · c₀ + 16 · c₁ + c₂` in 32-bit arithmetic. -/
def voxId (x : FVec Ideal S16x262144x3 .f32) : IVec S16x262144 32 :=
  addi (addi (muli (cellsOf x 0 (by decide)) (broadcastInDim S16x262144 ![] (by decide) (constantI S_ 32 256#32)))
      (muli (cellsOf x 1 (by decide)) (broadcastInDim S16x262144 ![] (by decide) (constantI S_ 32 16#32))))
    (cellsOf x 2 (by decide))

/-- An extended real in `[0, 15]` converts to a word whose value is at most 15: it is a real, and the conversion is its floor,
    which lies in `[0, 15]`. -/
theorem fptosi_toNat_le (y : EReal) (h0 : ((0 : ℝ) : EReal) ≤ y) (h15 : y ≤ ((15 : ℝ) : EReal)) :
    (Ideal.fptosi 32 y).toNat ≤ 15 := by
  induction y using EReal.rec with
  | bot => exact absurd h0 (by simp)
  | top => exact absurd h15 (by simp)
  | coe r =>
    have hr0 : (0 : ℝ) ≤ r := EReal.coe_le_coe_iff.mp h0
    have hr15 : r ≤ 15 := EReal.coe_le_coe_iff.mp h15
    have hf0 : (0 : ℤ) ≤ ⌊r⌋ := Int.floor_nonneg.mpr hr0
    have hf15 : ⌊r⌋ ≤ 15 := by
      have : ⌊r⌋ ≤ ⌊(15 : ℝ)⌋ := Int.floor_le_floor hr15
      simpa using this
    rw [Ideal.fptosi, Ideal.toIntClamped_coe, if_pos hr0, BitVec.toNat_ofInt]
    norm_num
    omega

/-- Every clamped cell lies in `[0, 15]`: it is `min 15 (max 0 _)`. -/
theorem clamped_mem (x : FVec Ideal S16x262144x3 .f32) (j : S16x262144x3.Idx) :
    ((0 : ℝ) : EReal) ≤ clamped x j ∧ clamped x j ≤ ((15 : ℝ) : EReal) := by
  have t15 : (15#32 : BitVec 32).toInt = 15 := by decide
  have t0 : (0#32 : BitVec 32).toInt = 0 := by decide
  have e15 : ((((15#32 : BitVec 32).toInt : ℤ) : ℝ) : EReal) = ((15 : ℝ) : EReal) := by rw [t15]; norm_num
  have e0 : ((((0#32 : BitVec 32).toInt : ℤ) : ℝ) : EReal) = ((0 : ℝ) : EReal) := by rw [t0]; norm_num
  constructor
  · show ((0 : ℝ) : EReal) ≤ min (((15#32 : BitVec 32).toInt : ℝ) : EReal) (max (((0#32 : BitVec 32).toInt : ℝ) : EReal) _)
    rw [e15, e0]
    exact le_min (EReal.coe_le_coe_iff.mpr (by norm_num)) (le_max_left _ _)
  · show min (((15#32 : BitVec 32).toInt : ℝ) : EReal) (max (((0#32 : BitVec 32).toInt : ℝ) : EReal) _) ≤ ((15 : ℝ) : EReal)
    rw [e15]
    exact min_le_left _ _

/-- Every integer cell is at most 15. -/
theorem cells_le (x : FVec Ideal S16x262144x3 .f32) (j : S16x262144x3.Idx) : (cells x j).toNat ≤ 15 :=
  fptosi_toNat_le _ (clamped_mem x j).1 (clamped_mem x j).2

/-- A coordinate's cells are entries of `cells` (a slice and a reshape only re-index), so each is at most 15. -/
theorem cellsOf_le (x : FVec Ideal S16x262144x3 .f32) (a : Nat) (h : S16x262144x3.Slices ![0, 0, a] S16x262144x1)
    (i : S16x262144.Idx) : (cellsOf x a h i).toNat ≤ 15 := cells_le x _

/-- Three words at most 15 pack below 4096: no product or sum wraps. -/
theorem pack_lt (a b c : BitVec 32) (ha : a.toNat ≤ 15) (hb : b.toNat ≤ 15) (hc : c.toNat ≤ 15) :
    (a * 256#32 + b * 16#32 + c).toNat < 4096 := by
  simp only [BitVec.toNat_add, BitVec.toNat_mul, BitVec.toNat_ofNat]
  omega

/-- Every voxel id is below 4096: each of the three cells is at most 15. -/
theorem voxId_lt (x : FVec Ideal S16x262144x3 .f32) (i : S16x262144.Idx) : (voxId x i).toNat < 4096 := by
  exact pack_lt _ _ _ (cellsOf_le x 0 _ i) (cellsOf_le x 1 _ i) (cellsOf_le x 2 _ i)

end Cert.Voxel

end
-- ==== Proof.KBlocks.lean ====
/-
  The grid and the blocks. Grid point `t` is batch `t / 256`, voxel tile `t / 64 % 4`, point tile `t % 64`. The input
  window's block at `t` is rows `4096 · (t % 64) …` of batch `t / 256` of the input; the voxel-id window's block is the
  same rows of the voxel ids, which the host lines before the region computed from the input (`Voxel.voxId`).
-/
import proofs.«174219_j62826781606551_1_alg».proof.Proof.Gen.KernelIdeal.Frame
import proofs.«174219_j62826781606551_1_alg».proof.Proof.Head
import Idealize.ShloMosaic.Lib.ValueIdx
import Idealize.ShloMosaic.Lib.Pipeline.Value
import Idealize.ShloMosaic.Lib.StableHlo.Run

noncomputable section

open scoped BigOperators

namespace Cert.KernelIdeal.Blocks

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

theorem N_eq : cfg0.N = 4096 := N_0

/-- Grid point `t`'s batch, -/
theorem coords0 (t : Fin cfg0.N) : ((grid0.coords t) 0).val = t.val / 256 := by
  exact (by decide +kernel : ∀ t : Fin grid0.N, ((grid0.coords t) 0).val = t.val / 256) t
/-- voxel tile, -/
theorem coords1 (t : Fin cfg0.N) : ((grid0.coords t) 1).val = t.val / 64 % 4 := by
  exact (by decide +kernel : ∀ t : Fin grid0.N, ((grid0.coords t) 1).val = t.val / 64 % 4) t
/-- and point tile. -/
theorem coords2 (t : Fin cfg0.N) : ((grid0.coords t) 2).val = t.val % 64 := by
  exact (by decide +kernel : ∀ t : Fin grid0.N, ((grid0.coords t) 2).val = t.val % 64) t

/-- The input window's block index at point `t` is (batch, point tile, 0): the index map forgets the voxel tile. -/
theorem inputIndex : ∀ t : Fin cfg0.N,
    win0_0.index t 0 = t.val / 256 ∧ win0_0.index t 1 = t.val % 64 ∧ win0_0.index t 2 = 0 :=
  (by decide +kernel : ∀ t : Fin grid0.N,
    win0_0.index t 0 = t.val / 256 ∧ win0_0.index t 1 = t.val % 64 ∧ win0_0.index t 2 = 0)
/-- The voxel-id window's block index at point `t` is the same triple. -/
theorem voxelIndex : ∀ t : Fin cfg0.N,
    win0_1.index t 0 = t.val / 256 ∧ win0_1.index t 1 = t.val % 64 ∧ win0_1.index t 2 = 0 :=
  (by decide +kernel : ∀ t : Fin grid0.N,
    win0_1.index t 0 = t.val / 256 ∧ win0_1.index t 1 = t.val % 64 ∧ win0_1.index t 2 = 0)

/-- Grid point `t`'s batch, as an index of the batch axis. -/
abbrev bat (t : Fin cfg0.N) : Fin 16 := ⟨t.val / 256, by have := t.isLt; have := N_eq; omega⟩

/-- The input as the run finds it, at its literal type. -/
abbrev xin (c : Dev nD) : FVec Ideal Cert.Voxel.S16x262144x3 .f32 := m ((c : Thread nD τ).loc main_arg0)

/-- The input window's block at point `t`, at its literal type. -/
abbrev xblk (c : Dev nD) (t : Fin cfg0.N) : Vec Ideal S1x4096x3 .f32 := iblk m c 0 t
/-- The voxel-id window's block at point `t`, at its literal type. -/
abbrev vblk (c : Dev nD) (t : Fin cfg0.N) : Vec Ideal S1x4096x1 .i32 := iblk m c 1 t

set_option maxHeartbeats 1000000 in
/-- The voxel-id array the region finds is the voxel ids of the input, with a unit axis appended. -/
theorem varr_eq (c : Dev nD) :
    (V m c main_v28 : IVec S16x262144x1 32)
      = broadcastInDim S16x262144x1 ![0, 1] bcast_S16x262144_S16x262144x1_0_1 (Cert.Voxel.voxId (xin m c)) := by
  -- each host line's result is its function of the earlier results; composed, they are `voxId` of the input, term for term
  dsimp only [Gen.V, Gen.V0]
  simp only [Gen.hostOps0, Gen.hostOps0_1, Gen.hostOps0_2, List.flatten_cons, List.flatten_nil, List.append_nil,
    List.cons_append, List.nil_append]
  after_results_simp
  rfl

/-- Row `r` of the input block at `t` is point `4096 · (t % 64) + r` of batch `t / 256`. -/
theorem xblk_apply (c : Dev nD) (t : Fin cfg0.N) (r : Fin 4096) (a : Fin 3) :
    (xblk m c t (ix3 0 r a) : EReal)
      = xin m c (ix3 (bat t)
          ⟨t.val % 64 * 4096 + r.val, by have := r.isLt; omega⟩ a) := by
  have hi := inputIndex t
  show iblk m c 0 t (ix3 0 r a) = _
  unfold iblk
  rw [View.read_apply]
  show V m c main_arg0 (((cfg0.win 0).blk t).view.emb (ix3 0 r a)) = m ((c : Thread nD τ).loc main_arg0) _
  rw [V_main_arg0]
  -- a block's coordinate on each axis is (block index) × (block extent) + the coordinate inside the block
  refine congrArg _ (funext fun d => Fin.ext ?_)
  match d with
  | ⟨0, _⟩ => show win0_0.index t 0 * 1 + 1 * 0 = t.val / 256; rw [hi.1]; omega
  | ⟨1, _⟩ => show win0_0.index t 1 * 4096 + 1 * r.val = t.val % 64 * 4096 + r.val; rw [hi.2.1]; omega
  | ⟨2, _⟩ => show win0_0.index t 2 * 3 + 1 * a.val = a.val; rw [hi.2.2]; omega

/-- A unit axis appended: the widened array at an index whose first two coordinates are `(b, p)` is the array at `(b, p)`. -/
theorem appendUnit_apply (v : IVec S16x262144 32) (j : S16x262144x1.Idx) (b : Fin 16) (p : Fin 262144)
    (h0 : (j 0).val = b.val) (h1 : (j 1).val = p.val) :
    broadcastInDim S16x262144x1 ![0, 1] bcast_S16x262144_S16x262144x1_0_1 v j = v (ix2 b p) := by
  refine broadcastInDim_apply _ _ _ _ (ix2 b p) ?_
  intro a
  match a with
  | ⟨0, _⟩ => show b.val = if (16 : Nat) = 1 then 0 else (j 0).val; rw [if_neg (by decide), h0]
  | ⟨1, _⟩ => show p.val = if (262144 : Nat) = 1 then 0 else (j 1).val; rw [if_neg (by decide), h1]

/-- Row `r` of the voxel-id block at `t` is that point's voxel id. -/
theorem vblk_apply (c : Dev nD) (t : Fin cfg0.N) (r : Fin 4096) :
    (vblk m c t (ix3 0 r 0) : BitVec 32)
      = Cert.Voxel.voxId (xin m c) (ix2 (bat t)
          ⟨t.val % 64 * 4096 + r.val, by have := r.isLt; omega⟩) := by
  have hi := voxelIndex t
  show iblk m c 1 t (ix3 0 r 0) = _
  unfold iblk
  rw [View.read_apply]
  show (V m c main_v28 : IVec S16x262144x1 32) (((cfg0.win 1).blk t).view.emb (ix3 0 r 0)) = _
  rw [varr_eq]
  -- the block's row `r` sits at (batch, 4096 · point tile + r, 0) of the widened array, whose unit axis is forgotten
  refine appendUnit_apply _ _ (bat t) ⟨t.val % 64 * 4096 + r.val, by have := r.isLt; omega⟩ ?_ ?_
  · show win0_1.index t 0 * 1 + 1 * 0 = t.val / 256; rw [hi.1]; omega
  · show win0_1.index t 1 * 4096 + 1 * r.val = t.val % 64 * 4096 + r.val; rw [hi.2.1]; omega

end Cert.KernelIdeal.Blocks

end
-- ==== Proof.KAccum.lean ====
/-
  The accumulation over the point tiles. Within one batch and one voxel tile the 64 grid points run over the batch's
  points 4096 at a time; after point tile `n` the accumulator's element `(f, j)` holds the contributions of the batch's
  first `4096 · (n + 1)` points to statistic `f` of voxel `1024 · (voxel tile) + j` (by induction on the grid point: the
  first tile starts from zero, every later tile adds its 4096 points to what the tile before left). After the last tile
  that is the whole statistic, and the output block holds it.
-/
import proofs.«174219_j62826781606551_1_alg».proof.Proof.KCases
import proofs.«174219_j62826781606551_1_alg».proof.Proof.KTile
import proofs.«174219_j62826781606551_1_alg».proof.Proof.KBlocks
import Mathlib.Algebra.BigOperators.Group.Finset.Basic

noncomputable section

open scoped BigOperators

namespace Cert.KernelIdeal.Accum

open Idealize.ShloMosaic Idealize.ShloMosaic.TcCoe Idealize.ShloMosaic.ValueIdx Idealize.SL.Sem Cert.KernelIdeal Cert.KernelIdeal.Gen
open Cert.KernelIdeal.Blocks

variable (m : (ℓ : Loc nD τ sig) → Buf (Elt Ideal) ℓ)

/-- One more tile of 4096 points: the first `(k + 1) · 4096` contributions are the first `k · 4096` and the next 4096. -/
theorem upTo_succ (vox : (⟨2, ![16, 262144]⟩ : Shape).Idx → BitVec 32) (x : (⟨3, ![16, 262144, 3]⟩ : Shape).Idx → EReal)
    (b : Fin 16) (w : Nat) (f : Fin 13) (k : Nat) :
    Cert.Voxel.upTo vox x b w f ((k + 1) * 4096)
      = Cert.Voxel.upTo vox x b w f (k * 4096)
        + ∑ r ∈ Finset.range 4096, Cert.Voxel.term vox x b w f (k * 4096 + r) := by
  unfold Cert.Voxel.upTo
  rw [show (k + 1) * 4096 = k * 4096 + 4096 from by omega]
  exact Finset.sum_range_add _ _ _

/-- No point, no contribution. -/
theorem upTo_zero (vox : (⟨2, ![16, 262144]⟩ : Shape).Idx → BitVec 32) (x : (⟨3, ![16, 262144, 3]⟩ : Shape).Idx → EReal)
    (b : Fin 16) (w : Nat) (f : Fin 13) : Cert.Voxel.upTo vox x b w f 0 = 0 := by
  unfold Cert.Voxel.upTo
  rw [Finset.range_zero, Finset.sum_empty]

/-- A tile's part is the next 4096 terms: row `r` of the blocks at `t` is point `4096 · (t % 64) + r` of batch `t / 256`,
    and the voxel tile of `t` is `t / 64 % 4`. -/
theorem part_eq (c : Dev nD) (t : Fin cfg0.N) (f : Fin 13) (j : Fin 1024) :
    Tile.part ((grid0.coords t) 1).val (xblk m c t) (vblk m c t) f j
      = ∑ r ∈ Finset.range 4096, Cert.Voxel.term (Cert.Voxel.voxId (xin m c)) (xin m c) (bat t)
          (t.val / 64 % 4 * 1024 + j.val) f (t.val % 64 * 4096 + r) := by
  rw [Finset.sum_range]
  unfold Tile.part
  refine Finset.sum_congr rfl fun r _ => ?_
  have hr := r.isLt
  have hlt : t.val % 64 * 4096 + r.val < 262144 := by omega
  unfold Cert.Voxel.term
  rw [dif_pos hlt, vblk_apply m c t r, coords1 t]
  have hp : (fun a => (xblk m c t (ix3 0 r a) : EReal))
      = Cert.Voxel.point (xin m c) (bat t) ⟨t.val % 64 * 4096 + r.val, hlt⟩ := funext fun a => xblk_apply m c t r a
  rw [hp]

/-- A first point tile leaves its own part in the accumulator: the reset's zeros plus the tile's part. -/
theorem scratch_first (c : Dev nD) (t : Fin cfg0.N) (h0 : t.val % 64 = 0) (f : Fin 13) (j : Fin 1024) :
    ((outsAt0 m c t.val t.isLt).2 (ix2 f j) : EReal)
      = Tile.part ((grid0.coords t) 1).val (xblk m c t) (vblk m c t) f j := by
  have h1 : ¬t.val % 64 = 63 := by omega
  rw [outsAt0_A m c t h0 h1]
  dsimp only
  refine (congrFun (Cases.sout_A (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) (ix2 f j)).trans ?_
  refine (Tile.pay3_apply (grid0.coords t) (xblk m c t) (vblk m c t) (k0_pay2 (F := Ideal)) f j).trans ?_
  rw [Tile.pay2_apply (ix2 f j), zero_add]

/-- A later point tile adds its part to what the tile before left. -/
theorem scratch_next (c : Dev nD) (t : Fin cfg0.N) (h0 : ¬t.val % 64 = 0) (f : Fin 13) (j : Fin 1024) :
    ((outsAt0 m c t.val t.isLt).2 (ix2 f j) : EReal)
      = ((outsAt0 m c (t.val - 1) (Nat.lt_of_le_of_lt (Nat.sub_le _ _) t.isLt)).2 (ix2 f j) : EReal)
        + Tile.part ((grid0.coords t) 1).val (xblk m c t) (vblk m c t) f j := by
  by_cases h1 : t.val % 64 = 63
  · rw [outsAt0_C m c t h0 h1]
    dsimp only
    refine (congrFun (Cases.sout_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) (ix2 f j)).trans ?_
    exact Tile.pay3_apply (grid0.coords t) (xblk m c t) (vblk m c t) (outsAt0 m c (t.val - 1) (Nat.lt_of_le_of_lt (Nat.sub_le _ _) t.isLt)).2 f j
  · rw [outsAt0_B m c t h0 h1]
    dsimp only
    refine (congrFun (Cases.sout_B (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) (ix2 f j)).trans ?_
    exact Tile.pay3_apply (grid0.coords t) (xblk m c t) (vblk m c t) (outsAt0 m c (t.val - 1) (Nat.lt_of_le_of_lt (Nat.sub_le _ _) t.isLt)).2 f j

/-- The accumulator after grid point `n`, by induction on `n`: a first tile holds its own 4096 terms, a later one the
    terms before it (the point before is in the same batch and voxel tile, one point tile earlier) and its own. -/
theorem scratch_at (c : Dev nD) (n : ℕ) : ∀ (hn : n < cfg0.N) (f : Fin 13) (j : Fin 1024),
    ((outsAt0 m c n hn).2 (ix2 f j) : EReal)
      = Cert.Voxel.upTo (Cert.Voxel.voxId (xin m c)) (xin m c) (bat ⟨n, hn⟩) (n / 64 % 4 * 1024 + j.val) f ((n % 64 + 1) * 4096) := by
  induction n using Nat.strong_induction_on with
  | _ n ih =>
    intro hn f j
    rw [upTo_succ]
    by_cases h0 : n % 64 = 0
    · refine (scratch_first m c ⟨n, hn⟩ h0 f j).trans ?_
      rw [part_eq m c ⟨n, hn⟩ f j, h0, Nat.zero_mul, upTo_zero, zero_add]
    · refine (scratch_next m c ⟨n, hn⟩ h0 f j).trans ?_
      rw [part_eq m c ⟨n, hn⟩ f j]
      refine congrArg (fun s : EReal => s + _) ?_
      refine (ih (n - 1) (by omega) (Nat.lt_of_le_of_lt (Nat.sub_le _ _) hn) f j).trans ?_
      have hb : (bat ⟨n - 1, Nat.lt_of_le_of_lt (Nat.sub_le _ _) hn⟩ : Fin 16) = bat ⟨n, hn⟩ := Fin.ext (by show (n - 1) / 256 = n / 256; omega)
      have hw : (n - 1) / 64 % 4 = n / 64 % 4 := by omega
      have hk : (n - 1) % 64 + 1 = n % 64 := by omega
      rw [hb, hw, hk]

/-- After grid point `t` the accumulator holds the contributions of the batch's first `4096 · (t % 64 + 1)` points. -/
theorem scratch_eq (c : Dev nD) (t : Fin cfg0.N) (f : Fin 13) (j : Fin 1024) :
    ((outsAt0 m c t.val t.isLt).2 (ix2 f j) : EReal)
      = Cert.Voxel.upTo (Cert.Voxel.voxId (xin m c)) (xin m c) (bat t) (t.val / 64 % 4 * 1024 + j.val) f ((t.val % 64 + 1) * 4096) :=
  scratch_at m c t.val t.isLt f j

/-- At a last point tile the output block is the accumulator the same point leaves, re-shaped. -/
theorem out_eq_scratch (c : Dev nD) (t : Fin cfg0.N) (h63 : t.val % 64 = 63) (f : Fin 13) (j : Fin 1024) :
    ((outsAt0 m c t.val t.isLt).1 (ix3 0 f j) : EReal) = ((outsAt0 m c t.val t.isLt).2 (ix2 f j) : EReal) := by
  have h0 : ¬t.val % 64 = 0 := by omega
  rw [outsAt0_C m c t h0 h63]
  dsimp only
  refine (congrFun (Cases.out_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h63) (iblk m c 0 t) (iblk m c 1 t) (outsAt0 m c (t.val - 1) (Nat.lt_of_le_of_lt (Nat.sub_le _ _) t.isLt)).2) (ix3 0 f j)).trans ?_
  refine (Tile.pay1_apply _ f j).trans ?_
  exact (congrFun (Cases.sout_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h63) (iblk m c 0 t) (iblk m c 1 t) (outsAt0 m c (t.val - 1) (Nat.lt_of_le_of_lt (Nat.sub_le _ _) t.isLt)).2) (ix2 f j)).symm

/-- At a last point tile the output block holds the whole statistic of each of its voxels. -/
theorem out_eq (c : Dev nD) (t : Fin cfg0.N) (h63 : t.val % 64 = 63) (f : Fin 13) (j : Fin 1024) :
    ((outsAt0 m c t.val t.isLt).1 (ix3 0 f j) : EReal)
      = Cert.Voxel.stat (Cert.Voxel.voxId (xin m c)) (xin m c) (bat t)
          ⟨t.val / 64 % 4 * 1024 + j.val, by have := j.isLt; omega⟩ f := by
  refine (out_eq_scratch m c t h63 f j).trans ?_
  refine (scratch_eq m c t f j).trans ?_
  rw [Cert.Voxel.stat_eq_upTo, h63]

end Cert.KernelIdeal.Accum

end
-- ==== Proof.KFlush.lean ====
/-
  The region's result array. The output window's block at a last point tile is rows `0 … 12` and columns
  `1024 · (voxel tile) …` of batch `t / 256` of the `[16, 13, 4096]` array; the 64 last-tile points (one per batch and
  voxel tile) cover the array, and each writes the statistics of its voxels. So element `(b, f, v)` of the array ends at
  statistic `f` of voxel `v` of batch `b`.
-/
import proofs.«174219_j62826781606551_1_alg».proof.Proof.KAccum
import Idealize.ShloMosaic.Lib.Pipeline.Value

noncomputable section

open scoped BigOperators

namespace Cert.KernelIdeal.Flush

open Idealize.ShloMosaic Idealize.ShloMosaic.TcCoe Idealize.ShloMosaic.ValueIdx Idealize.SL.Sem Cert.KernelIdeal Cert.KernelIdeal.Gen
open Idealize.ShloMosaic.Pipeline (Dat)
open Cert.KernelIdeal.Blocks

variable (m : (ℓ : Loc nD τ sig) → Buf (Elt Ideal) ℓ)

/-- The statistics laid out as the kernel writes them: `[batch, statistic, voxel]`. -/
def raw (x : FVec Ideal Cert.Voxel.S16x262144x3 .f32) : Vec Ideal S16x13x4096 .f32 :=
  fun i => Cert.Voxel.stat (Cert.Voxel.voxId x) x (i 0) (i 2) (i 1)

/-- The output window's block index at grid point `t` is (batch, 0, voxel tile). -/
theorem outIndex : ∀ t : Fin cfg0.N,
    win0_2.index t 0 = t.val / 256 ∧ win0_2.index t 1 = 0 ∧ win0_2.index t 2 = t.val / 64 % 4 :=
  (by decide +kernel : ∀ t : Fin grid0.N,
    win0_2.index t 0 = t.val / 256 ∧ win0_2.index t 1 = 0 ∧ win0_2.index t 2 = t.val / 64 % 4)

/-- The laid-out statistics at an index whose coordinates are `(b, f, v)`. -/
theorem raw_apply (x : FVec Ideal Cert.Voxel.S16x262144x3 .f32) (i : S16x13x4096.Idx) (b : Fin 16) (f : Fin 13) (v : Fin 4096)
    (h0 : (i 0).val = b.val) (h1 : (i 1).val = f.val) (h2 : (i 2).val = v.val) :
    raw x i = Cert.Voxel.stat (Cert.Voxel.voxId x) x b v f := by
  have e0 : i 0 = b := Fin.ext h0
  have e1 : i 1 = f := Fin.ext h1
  have e2 : i 2 = v := Fin.ext h2
  unfold raw
  rw [e0, e1, e2]

/-- An array read through the block at grid point `t`: element `y` of the block is the array's element under it. -/
theorem read_blk (G : Vec Ideal S16x13x4096 .f32) (t : Fin cfg0.N) (y : ((cfg0.win 2).xblock (grid0.coords t)).Idx) :
    ((cfg0.win 2).blk t).view.read (Elt Ideal) G y = G (((cfg0.win 2).blk t).view.emb y) := rfl

/-- What a last-tile point writes back is its block of the laid-out statistics: element `(0, f, j)` of the block at
    `t` is element `(t / 256, f, 1024 · (t / 64 % 4) + j)` of the array. -/
theorem flushed_eq (c : Dev nD) (t : Fin cfg0.N) (hf : (cfg0.win 2).flush t = true) :
    (dats m 0 c).flushed 2 t = ((cfg0.win 2).blk t).view.read (Elt Ideal) (raw (xin m c)) := by
  have h63 : t.val % 64 = 63 := (flush0_2 t).mp hf
  have hi := outIndex t
  have hN : cfg0.N = 4096 := N_eq
  have ht : t.val < 4096 := lt_of_lt_of_eq t.isLt hN
  show (cfg0.win 2).cut (grid0.coords t) ((dats m 0 c).after 2 t) = _
  rw [after0_2]
  funext y
  have hy0 : (y 0).val < 1 := (y 0).isLt
  have hy1 : (y 1).val < 13 := (y 1).isLt
  have hy2 : (y 2).val < 1024 := (y 2).isLt
  -- the block is not cut: its element `y` is the staging buffer's element `(0, y 1, y 2)`
  have e : (cfg0.win 2).xinj (grid0.coords t) y = ix3 (0 : Fin 1) (⟨(y 1).val, hy1⟩ : Fin 13) (⟨(y 2).val, hy2⟩ : Fin 1024) := by
    funext a; apply Fin.ext
    match a with
    | ⟨0, _⟩ => show (y 0).val = 0; omega
    | ⟨1, _⟩ => rfl
    | ⟨2, _⟩ => rfl
  show (outsAt0 m c t.val t.isLt).1 ((cfg0.win 2).xinj (grid0.coords t) y) = _
  rw [e]
  refine (Accum.out_eq m c t h63 ⟨(y 1).val, hy1⟩ ⟨(y 2).val, hy2⟩).trans (Eq.symm ?_)
  refine (read_blk (raw (xin m c)) t y).trans ?_
  -- a block's coordinate on each axis is (block index) × (block extent) + the coordinate inside the block
  refine raw_apply (xin m c) _ _ _ _ ?_ ?_ ?_
  · show win0_2.index t 0 * 1 + 1 * (y 0).val = t.val / 256; rw [hi.1]; omega
  · show win0_2.index t 1 * 13 + 1 * (y 1).val = (y 1).val; rw [hi.2.1]; omega
  · show win0_2.index t 2 * 1024 + 1 * (y 2).val = t.val / 64 % 4 * 1024 + (y 2).val; rw [hi.2.2]; omega

/-- Every element of the array lies in the block of a last-tile point: `(b, f, v)` in that of batch `b`, voxel tile `v / 1024`. -/
theorem cover (i : S16x13x4096.Idx) :
    ∃ t : Fin cfg0.N, (cfg0.win 2).flush t = true ∧ i ∈ ((cfg0.win 2).blk t).view.set := by
  have hN : cfg0.N = 4096 := N_eq
  have h0 : (i 0 : Nat) < 16 := (i 0).isLt
  have h1 : (i 1 : Nat) < 13 := (i 1).isLt
  have h2 : (i 2 : Nat) < 4096 := (i 2).isLt
  obtain ⟨n, hn⟩ : ∃ n : Nat, n = ((i 0).val * 4 + (i 2).val / 1024) * 64 + 63 := ⟨_, rfl⟩
  have hlt : n < cfg0.N := by rw [hN]; omega
  have hi : win0_2.index ⟨n, hlt⟩ 0 = n / 256 ∧ win0_2.index ⟨n, hlt⟩ 1 = 0 ∧ win0_2.index ⟨n, hlt⟩ 2 = n / 64 % 4 :=
    outIndex ⟨n, hlt⟩
  refine ⟨⟨n, hlt⟩, (flush0_2 _).mpr (by show n % 64 = 63; omega), ?_⟩
  show i ∈ ((View.whole main_v29).slice (win0_2.rect ⟨n, hlt⟩)).set
  rw [View.set_slice_whole, Rect.mem_set_unit]
  intro a
  match a with
  | ⟨0, _⟩ =>
    show win0_2.index ⟨n, hlt⟩ 0 * 1 ≤ (i 0 : Nat) ∧ (i 0 : Nat) < win0_2.index ⟨n, hlt⟩ 0 * 1 + 1
    rw [hi.1]; omega
  | ⟨1, _⟩ =>
    show win0_2.index ⟨n, hlt⟩ 1 * 13 ≤ (i 1 : Nat) ∧ (i 1 : Nat) < win0_2.index ⟨n, hlt⟩ 1 * 13 + 13
    rw [hi.2.1]; omega
  | ⟨2, _⟩ =>
    show win0_2.index ⟨n, hlt⟩ 2 * 1024 ≤ (i 2 : Nat) ∧ (i 2 : Nat) < win0_2.index ⟨n, hlt⟩ 2 * 1024 + 1024
    rw [hi.2.2]; omega

/-- The region's result array ends at the statistics. -/
theorem final (c : Dev nD) : (dats m 0 c).arrAt 2 cfg0.N = raw (xin m c) :=
  (dats m 0 c).arrAt_eq_of_cover 2 (raw (xin m c)) (flushed_eq m c) cover

end Cert.KernelIdeal.Flush

end
-- ==== Proof.KTail.lean ====
/-
  The host lines after the region, as one function of the region's result array, and that function read at an element.
  The lines transpose the array to `[batch, voxel, statistic]`, split off the count (statistic 0), the three sums and the
  nine product sums, and compute the means `sum / max (count, 1)`, the covariance entries
  `(products − count · meanᵢ · meanⱼ) / max (count − 1, 1)`, join them, and zero every voxel whose count is not above one.
  Every line is pointwise or a re-layout, so element `(b, v, k)` of the result is `Voxel.cell` of the thirteen statistics
  `raw (b, ·, v)`.
-/
import proofs.«174219_j62826781606551_1_alg».proof.Proof.Gen.KernelIdeal.Frame
import proofs.«174219_j62826781606551_1_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

open scoped BigOperators

namespace Cert.KernelIdeal.Tail

open Idealize.ShloMosaic Idealize.ShloMosaic.TcCoe Idealize.ShloMosaic.ValueIdx Idealize.SL.Sem Cert.KernelIdeal Cert.KernelIdeal.Gen

variable {F : FTy → Type} [FloatOps F]

/-- The count of every voxel: statistic 0 of the transposed array. -/
def count (raw : Vec F S16x13x4096 .f32) : FVec F S16x4096 .f32 :=
  shapeCast S16x4096 (extractStridedSlice S16x4096x1 ![0, 0, 0]
    (transpose S16x4096x13 [0, 2, 1] raw transposes_S16x13x4096_S16x4096x13_0_2_1) slices_S16x4096x13_S16x4096x1_0_0_0)
    shapeCasts_S16x4096x1_S16x4096

/-- The constant one over the voxels. -/
def ones : FVec F S16x4096 .f32 := broadcastInDim S16x4096 ![] bcast_S_S16x4096 (constant S_ .f32 0x3F800000#32)

/-- The means: the three sums over `max (count, 1)`. -/
def means (raw : Vec F S16x13x4096 .f32) : FVec F S16x4096x3 .f32 :=
  Host.divf (extractStridedSlice S16x4096x3 ![0, 0, 1]
      (transpose S16x4096x13 [0, 2, 1] raw transposes_S16x13x4096_S16x4096x13_0_2_1) slices_S16x4096x13_S16x4096x3_0_0_1)
    (broadcastInDim S16x4096x3 ![0, 1, 2] bcast_S16x4096x1_S16x4096x3_0_1_2
      (broadcastInDim S16x4096x1 ![0, 1] bcast_S16x4096_S16x4096x1_0_1 (maximumf (count raw) ones)))

/-- The nine products `meanᵢ · meanⱼ`. -/
def meanProducts (raw : Vec F S16x13x4096 .f32) : FVec F S16x4096x9 .f32 :=
  shapeCast S16x4096x9
    (mulf (broadcastInDim S16x4096x3x3 ![0, 1, 2, 3] bcast_S16x4096x3x1_S16x4096x3x3_0_1_2_3
            (broadcastInDim S16x4096x3x1 ![0, 1, 2] bcast_S16x4096x3_S16x4096x3x1_0_1_2 (means raw)))
          (broadcastInDim S16x4096x3x3 ![0, 1, 2, 3] bcast_S16x4096x1x3_S16x4096x3x3_0_1_2_3
            (broadcastInDim S16x4096x1x3 ![0, 1, 3] bcast_S16x4096x3_S16x4096x1x3_0_1_3 (means raw))))
    shapeCasts_S16x4096x3x3_S16x4096x9

/-- The covariance entries. -/
def covs (raw : Vec F S16x13x4096 .f32) : FVec F S16x4096x9 .f32 :=
  Host.divf
    (subf (extractStridedSlice S16x4096x9 ![0, 0, 4]
        (transpose S16x4096x13 [0, 2, 1] raw transposes_S16x13x4096_S16x4096x13_0_2_1) slices_S16x4096x13_S16x4096x9_0_0_4)
      (mulf (broadcastInDim S16x4096x9 ![0, 1, 2] bcast_S16x4096x1_S16x4096x9_0_1_2
              (broadcastInDim S16x4096x1 ![0, 1] bcast_S16x4096_S16x4096x1_0_1 (count raw)))
            (meanProducts raw)))
    (broadcastInDim S16x4096x9 ![0, 1, 2] bcast_S16x4096x1_S16x4096x9_0_1_2
      (broadcastInDim S16x4096x1 ![0, 1] bcast_S16x4096_S16x4096x1_0_1 (maximumf (subf (count raw) ones) ones)))

/-- The host lines after the region, composed: the result array from the region's array. -/
def tail (raw : Vec F S16x13x4096 .f32) : Vec F S16x4096x12 .f32 :=
  select
    (broadcastInDim S16x4096x12 ![0, 1, 2] bcast_S16x4096x1_S16x4096x12_0_1_2
      (broadcastInDim S16x4096x1 ![0, 1] bcast_S16x4096_S16x4096x1_0_1 (cmpf .ogt (count raw) ones)))
    (concatenate S16x4096x12 2 [⟨S16x4096x3, means raw⟩, ⟨S16x4096x9, covs raw⟩] concatenates_S16x4096x3_S16x4096x9_S16x4096x12_d2)
    (broadcastInDim S16x4096x12 ![] bcast_S_S16x4096x12 (id (constant S_ .f32 0x00000000#32)))

/-! ### The host lines read at an element (extended reals) -/

/-- The transposed array at `(b, v, f)` is the region's array at `(b, f, v)`. -/
theorem transposed_apply (raw : Vec Ideal S16x13x4096 .f32) (b : Fin 16) (v : Fin 4096) (f : Fin 13) :
    transpose S16x4096x13 [0, 2, 1] raw transposes_S16x13x4096_S16x4096x13_0_2_1 (ix3 b v f) = raw (ix3 b f v) :=
  transpose_ix3_021_apply raw _ b v f

/-- The count of voxel `(b, v)` is statistic 0. -/
theorem count_apply (raw : Vec Ideal S16x13x4096 .f32) (b : Fin 16) (v : Fin 4096) :
    count raw (ix2 b v) = raw (ix3 b 0 v) := by
  unfold count
  refine (shapeCast_apply _ shapeCasts_S16x4096x1_S16x4096 (ix2 b v) (ix3 b v (0 : Fin 1)) ?_).trans ?_
  · rewrite [Shape.rowMajor_val_three, Shape.rowMajor_val_two]
    show (b.val * 4096 + v.val) * 1 + 0 = b.val * 4096 + v.val
    omega
  refine (extractStridedSlice_apply ![0, 0, 0] _ slices_S16x4096x13_S16x4096x1_0_0_0 (ix3 b v (0 : Fin 1)) (ix3 b v (0 : Fin 13))
    (fun a => match a with
      | ⟨0, _⟩ => by show b.val = 0 + b.val; omega
      | ⟨1, _⟩ => by show v.val = 0 + v.val; omega
      | ⟨2, _⟩ => by show (0 : Nat) = 0 + 0; rfl)).trans ?_
  exact transposed_apply raw b v 0

/-- The constant one at any voxel. -/
theorem ones_apply (b : Fin 16) (v : Fin 4096) : ones (F := Ideal) (ix2 b v) = Cert.Voxel.one := by
  unfold ones
  exact broadcastInDim_apply _ bcast_S_S16x4096 _ (ix2 b v) ix0 (fun a => a.elim0)

/-- A per-voxel value spread along a new last axis of extent one. -/
theorem column_apply {α : Type} (y : S16x4096.Idx → α) (b : Fin 16) (v : Fin 4096) :
    broadcastInDim S16x4096x1 ![0, 1] bcast_S16x4096_S16x4096x1_0_1 y (ix3 b v (0 : Fin 1)) = y (ix2 b v) :=
  broadcastInDim_apply _ bcast_S16x4096_S16x4096x1_0_1 y (ix3 b v (0 : Fin 1)) (ix2 b v) (fun a => match a with
    | ⟨0, _⟩ => by show b.val = if (16 : Nat) = 1 then 0 else b.val; rw [if_neg (by decide)]
    | ⟨1, _⟩ => by show v.val = if (4096 : Nat) = 1 then 0 else v.val; rw [if_neg (by decide)])

/-- A column spread over `n` entries of the last axis reads the column. -/
theorem spread_apply {α : Type} {n : Nat} (h : S16x4096x1.BroadcastsInDim ⟨3, ![16, 4096, n]⟩ ![0, 1, 2])
    (y : S16x4096x1.Idx → α) (b : Fin 16) (v : Fin 4096) (k : Fin n) :
    broadcastInDim ⟨3, ![16, 4096, n]⟩ ![0, 1, 2] h y (ix3 b v k) = y (ix3 b v (0 : Fin 1)) :=
  broadcastInDim_apply _ h y (ix3 b v k) (ix3 b v (0 : Fin 1)) (fun a => match a with
    | ⟨0, _⟩ => by show b.val = if (16 : Nat) = 1 then 0 else b.val; rw [if_neg (by decide)]
    | ⟨1, _⟩ => by show v.val = if (4096 : Nat) = 1 then 0 else v.val; rw [if_neg (by decide)]
    | ⟨2, _⟩ => by show (0 : Nat) = if (1 : Nat) = 1 then 0 else k.val; rw [if_pos rfl])

/-- A per-voxel value spread over `n` entries of a new last axis reads the voxel's value. -/
theorem perVoxel_apply {α : Type} {n : Nat} (h : S16x4096x1.BroadcastsInDim ⟨3, ![16, 4096, n]⟩ ![0, 1, 2])
    (y : S16x4096.Idx → α) (b : Fin 16) (v : Fin 4096) (k : Fin n) :
    broadcastInDim ⟨3, ![16, 4096, n]⟩ ![0, 1, 2] h (broadcastInDim S16x4096x1 ![0, 1] bcast_S16x4096_S16x4096x1_0_1 y) (ix3 b v k)
      = y (ix2 b v) :=
  (spread_apply h _ b v k).trans (column_apply y b v)

/-- A slice of the transposed array along the statistics, from statistic `o`. -/
theorem statSlice_apply {n : Nat} (o : Nat) (raw : Vec Ideal S16x13x4096 .f32)
    (h : S16x4096x13.Slices ![0, 0, o] ⟨3, ![16, 4096, n]⟩) (b : Fin 16) (v : Fin 4096) (k : Fin n) (f : Fin 13)
    (hf : f.val = o + k.val) :
    extractStridedSlice ⟨3, ![16, 4096, n]⟩ ![0, 0, o]
      (transpose S16x4096x13 [0, 2, 1] raw transposes_S16x13x4096_S16x4096x13_0_2_1) h (ix3 b v k) = raw (ix3 b f v) :=
  (extractStridedSlice_apply ![0, 0, o] _ h (ix3 b v k) (ix3 b v f) (fun a => match a with
    | ⟨0, _⟩ => by show b.val = 0 + b.val; omega
    | ⟨1, _⟩ => by show v.val = 0 + v.val; omega
    | ⟨2, _⟩ => by show f.val = o + k.val; exact hf)).trans (transposed_apply raw b v f)

/-- The mean of coordinate `i` at voxel `(b, v)`. -/
theorem means_apply (raw : Vec Ideal S16x13x4096 .f32) (b : Fin 16) (v : Fin 4096) (i : Fin 3) :
    means raw (ix3 b v i)
      = Ideal.div (raw (ix3 b ⟨1 + i.val, by omega⟩ v)) (max (raw (ix3 b 0 v)) Cert.Voxel.one) := by
  unfold means
  show Ideal.div _ _ = _
  rw [statSlice_apply 1 raw slices_S16x4096x13_S16x4096x3_0_0_1 b v i ⟨1 + i.val, by omega⟩ rfl,
    perVoxel_apply bcast_S16x4096x1_S16x4096x3_0_1_2 _ b v i]
  show Ideal.div _ (max (count raw (ix2 b v)) (ones (F := Ideal) (ix2 b v))) = _
  rw [count_apply, ones_apply]

/-- Mean `i` laid along the third of four axes and spread along the fourth. -/
theorem rowSpread_apply {α : Type} (y : S16x4096x3.Idx → α) (b : Fin 16) (v : Fin 4096) (i j : Fin 3) :
    broadcastInDim S16x4096x3x3 ![0, 1, 2, 3] bcast_S16x4096x3x1_S16x4096x3x3_0_1_2_3
      (broadcastInDim S16x4096x3x1 ![0, 1, 2] bcast_S16x4096x3_S16x4096x3x1_0_1_2 y) (ix4 b v i j) = y (ix3 b v i) :=
  (broadcastInDim_apply _ bcast_S16x4096x3x1_S16x4096x3x3_0_1_2_3 _ (ix4 b v i j) (ix4 b v i (0 : Fin 1)) (fun a => match a with
    | ⟨0, _⟩ => by show b.val = if (16 : Nat) = 1 then 0 else b.val; rw [if_neg (by decide)]
    | ⟨1, _⟩ => by show v.val = if (4096 : Nat) = 1 then 0 else v.val; rw [if_neg (by decide)]
    | ⟨2, _⟩ => by show i.val = if (3 : Nat) = 1 then 0 else i.val; rw [if_neg (by decide)]
    | ⟨3, _⟩ => by show (0 : Nat) = if (1 : Nat) = 1 then 0 else j.val; rw [if_pos rfl])).trans
  (broadcastInDim_apply _ bcast_S16x4096x3_S16x4096x3x1_0_1_2 y (ix4 b v i (0 : Fin 1)) (ix3 b v i) (fun a => match a with
    | ⟨0, _⟩ => by show b.val = if (16 : Nat) = 1 then 0 else b.val; rw [if_neg (by decide)]
    | ⟨1, _⟩ => by show v.val = if (4096 : Nat) = 1 then 0 else v.val; rw [if_neg (by decide)]
    | ⟨2, _⟩ => by show i.val = if (3 : Nat) = 1 then 0 else i.val; rw [if_neg (by decide)]))

/-- Mean `j` laid along the fourth of four axes and spread along the third. -/
theorem colSpread_apply {α : Type} (y : S16x4096x3.Idx → α) (b : Fin 16) (v : Fin 4096) (i j : Fin 3) :
    broadcastInDim S16x4096x3x3 ![0, 1, 2, 3] bcast_S16x4096x1x3_S16x4096x3x3_0_1_2_3
      (broadcastInDim S16x4096x1x3 ![0, 1, 3] bcast_S16x4096x3_S16x4096x1x3_0_1_3 y) (ix4 b v i j) = y (ix3 b v j) :=
  (broadcastInDim_apply _ bcast_S16x4096x1x3_S16x4096x3x3_0_1_2_3 _ (ix4 b v i j) (ix4 b v (0 : Fin 1) j) (fun a => match a with
    | ⟨0, _⟩ => by show b.val = if (16 : Nat) = 1 then 0 else b.val; rw [if_neg (by decide)]
    | ⟨1, _⟩ => by show v.val = if (4096 : Nat) = 1 then 0 else v.val; rw [if_neg (by decide)]
    | ⟨2, _⟩ => by show (0 : Nat) = if (1 : Nat) = 1 then 0 else i.val; rw [if_pos rfl]
    | ⟨3, _⟩ => by show j.val = if (3 : Nat) = 1 then 0 else j.val; rw [if_neg (by decide)])).trans
  (broadcastInDim_apply _ bcast_S16x4096x3_S16x4096x1x3_0_1_3 y (ix4 b v (0 : Fin 1) j) (ix3 b v j) (fun a => match a with
    | ⟨0, _⟩ => by show b.val = if (16 : Nat) = 1 then 0 else b.val; rw [if_neg (by decide)]
    | ⟨1, _⟩ => by show v.val = if (4096 : Nat) = 1 then 0 else v.val; rw [if_neg (by decide)]
    | ⟨2, _⟩ => by show j.val = if (3 : Nat) = 1 then 0 else j.val; rw [if_neg (by decide)]))

/-- Product `q` of the nine is `mean (q / 3) · mean (q % 3)`. -/
theorem meanProducts_apply (raw : Vec Ideal S16x13x4096 .f32) (b : Fin 16) (v : Fin 4096) (q : Fin 9) :
    meanProducts raw (ix3 b v q)
      = means raw (ix3 b v ⟨q.val / 3, by omega⟩) * means raw (ix3 b v ⟨q.val % 3, Nat.mod_lt _ (by decide)⟩) := by
  unfold meanProducts
  refine (shapeCast_apply _ shapeCasts_S16x4096x3x3_S16x4096x9 (ix3 b v q)
    (ix4 b v (⟨q.val / 3, by omega⟩ : Fin 3) (⟨q.val % 3, Nat.mod_lt _ (by decide)⟩ : Fin 3)) ?_).trans ?_
  · rewrite [Shape.rowMajor_val_four, Shape.rowMajor_val_three]
    show ((b.val * 4096 + v.val) * 3 + q.val / 3) * 3 + q.val % 3 = (b.val * 4096 + v.val) * 9 + q.val
    omega
  show _ * _ = _
  rw [rowSpread_apply, colSpread_apply]

/-- Covariance entry `q` of the nine, from statistic `f = 4 + q`. -/
theorem covs_apply (raw : Vec Ideal S16x13x4096 .f32) (b : Fin 16) (v : Fin 4096) (q : Fin 9) (f : Fin 13)
    (hf : f.val = 4 + q.val) :
    covs raw (ix3 b v q)
      = Ideal.div (raw (ix3 b f v) - raw (ix3 b 0 v) * meanProducts raw (ix3 b v q))
          (max (raw (ix3 b 0 v) - Cert.Voxel.one) Cert.Voxel.one) := by
  unfold covs
  show Ideal.div (_ - _ * meanProducts raw (ix3 b v q)) _ = _
  rw [statSlice_apply 4 raw slices_S16x4096x13_S16x4096x9_0_0_4 b v q f hf,
    perVoxel_apply bcast_S16x4096x1_S16x4096x9_0_1_2 _ b v q, perVoxel_apply bcast_S16x4096x1_S16x4096x9_0_1_2 _ b v q]
  show Ideal.div (_ - count raw (ix2 b v) * _)
    (max (count raw (ix2 b v) - ones (F := Ideal) (ix2 b v)) (ones (F := Ideal) (ix2 b v))) = _
  rw [count_apply, ones_apply]

/-- The validity mask at `(b, v, k)`: the count compared with one. -/
theorem mask_apply (raw : Vec Ideal S16x13x4096 .f32) (b : Fin 16) (v : Fin 4096) (k : Fin 12) :
    broadcastInDim S16x4096x12 ![0, 1, 2] bcast_S16x4096x1_S16x4096x12_0_1_2
      (broadcastInDim S16x4096x1 ![0, 1] bcast_S16x4096_S16x4096x1_0_1 (cmpf .ogt (count raw) ones)) (ix3 b v k)
      = Ideal.cmp .ogt (raw (ix3 b 0 v)) Cert.Voxel.one := by
  rw [perVoxel_apply bcast_S16x4096x1_S16x4096x12_0_1_2 _ b v k]
  show Ideal.cmp .ogt (count raw (ix2 b v)) (ones (F := Ideal) (ix2 b v)) = _
  rw [count_apply, ones_apply]

/-- The constant zero at any element. -/
theorem zeros_apply (b : Fin 16) (v : Fin 4096) (k : Fin 12) :
    broadcastInDim S16x4096x12 ![] bcast_S_S16x4096x12 (id (constant (F := Ideal) S_ .f32 0x00000000#32)) (ix3 b v k)
      = Cert.Voxel.zero :=
  broadcastInDim_apply _ bcast_S_S16x4096x12 _ (ix3 b v k) ix0 (fun a => a.elim0)

/-- The joined array at an entry below three is a mean. -/
theorem joined_apply_lt (x₁ : S16x4096x3.Idx → EReal) (x₂ : S16x4096x9.Idx → EReal) (b : Fin 16) (v : Fin 4096) (k : Fin 12)
    (hk : k.val < 3) :
    concatenate S16x4096x12 2 [⟨S16x4096x3, x₁⟩, ⟨S16x4096x9, x₂⟩] concatenates_S16x4096x3_S16x4096x9_S16x4096x12_d2 (ix3 b v k)
      = x₁ (ix3 b v ⟨k.val, hk⟩) :=
  concatenate_pair_apply_left 2 x₁ x₂ concatenates_S16x4096x3_S16x4096x9_S16x4096x12_d2 (ix3 b v k) rfl (ix3 b v ⟨k.val, hk⟩)
    (fun a => match a with
      | ⟨0, _⟩ => rfl
      | ⟨1, _⟩ => rfl
      | ⟨2, _⟩ => rfl)

/-- The joined array at an entry from three on is a covariance entry. -/
theorem joined_apply_ge (x₁ : S16x4096x3.Idx → EReal) (x₂ : S16x4096x9.Idx → EReal) (b : Fin 16) (v : Fin 4096) (k : Fin 12)
    (hk : 3 ≤ k.val) :
    concatenate S16x4096x12 2 [⟨S16x4096x3, x₁⟩, ⟨S16x4096x9, x₂⟩] concatenates_S16x4096x3_S16x4096x9_S16x4096x12_d2 (ix3 b v k)
      = x₂ (ix3 b v ⟨k.val - 3, by omega⟩) :=
  concatenate_pair_apply_right 2 x₁ x₂ concatenates_S16x4096x3_S16x4096x9_S16x4096x12_d2 (ix3 b v k) rfl rfl
    (ix3 b v ⟨k.val - 3, by omega⟩)
    (fun a => match a with
      | ⟨0, _⟩ => fun _ => rfl
      | ⟨1, _⟩ => fun _ => rfl
      | ⟨2, _⟩ => fun h => absurd rfl h)
    (by show k.val - 3 + 3 = k.val; omega)

/-- The joined means and covariance entries at `(b, v, k)` are the voxel's twelve numbers before the mask. -/
theorem joined_apply (raw : Vec Ideal S16x13x4096 .f32) (b : Fin 16) (v : Fin 4096) (k : Fin 12) :
    concatenate S16x4096x12 2 [⟨S16x4096x3, means raw⟩, ⟨S16x4096x9, covs raw⟩]
        concatenates_S16x4096x3_S16x4096x9_S16x4096x12_d2 (ix3 b v k)
      = Cert.Voxel.dist (fun f => (raw (ix3 b f v) : EReal)) k := by
  unfold Cert.Voxel.dist
  by_cases hk : k.val < 3
  · rw [dif_pos hk, joined_apply_lt _ _ b v k hk, means_apply]
    rfl
  · have hk' : 3 ≤ k.val := Nat.le_of_not_lt hk
    have hk12 := k.isLt
    rw [dif_neg hk, joined_apply_ge _ _ b v k hk',
      covs_apply raw b v ⟨k.val - 3, by omega⟩ ⟨4 + 3 * ((k.val - 3) / 3) + (k.val - 3) % 3, by omega⟩
        (by show 4 + 3 * ((k.val - 3) / 3) + (k.val - 3) % 3 = 4 + (k.val - 3); omega),
      meanProducts_apply, means_apply, means_apply]
    rfl

/-- The means and the covariance entries joined along the last axis. -/
def join (a : (⟨S16x4096x3, .f32⟩ : BufTy).Contents (Elt F)) (b : (⟨S16x4096x9, .f32⟩ : BufTy).Contents (Elt F)) :
    (⟨S16x4096x12, .f32⟩ : BufTy).Contents (Elt F) :=
  concatenate S16x4096x12 2 [⟨S16x4096x3, a⟩, ⟨S16x4096x9, b⟩] concatenates_S16x4096x3_S16x4096x9_S16x4096x12_d2

variable (m : (ℓ : Loc nD τ sig) → Buf (Elt F) ℓ)

set_option maxHeartbeats 4000000 in
/-- What the frame run's post says of the result buffer: the host lines applied to the region's result array. -/
theorem tail_result (c : Dev nD) :
    Pipeline.afterTail₀ cfgs (dats m) 0 (V0 m) [hostOps1, hostOps1_1] c main_v61 = tail ((dats m 0 c).arrAt 2 cfg0.N) := by
  unfold Pipeline.afterTail₀
  simp only [hostOps1, hostOps1_1, List.flatten_cons, List.flatten_nil, List.append_nil, List.cons_append, List.nil_append]
  show StableHlo.after _ _ (Proc.devRef .tc main_v61) = _
  -- the joining line as a function of its two operands
  rw [show ((fun a b => concatenate S16x4096x12 2 [⟨S16x4096x3, a⟩, ⟨S16x4096x9, b⟩] concatenates_S16x4096x3_S16x4096x9_S16x4096x12_d2) :
      (⟨S16x4096x3, .f32⟩ : BufTy).Contents (Elt F) → (⟨S16x4096x9, .f32⟩ : BufTy).Contents (Elt F) → (⟨S16x4096x12, .f32⟩ : BufTy).Contents (Elt F))
      = join from rfl]
  -- every line's result at its own buffer is its function of its operands' buffers; no other line writes that buffer
  after_results_simp
  -- the region's result buffer holds the region's array
  have hA : Pipeline.withArrays (cfgs 0).spec c (V0 m c) (fun w => (dats m 0 c).arrAt w (cfgs 0).N) (Proc.devRef .tc main_v29)
      = (dats m 0 c).arrAt 2 cfg0.N := Pipeline.withArrays_arr spec0 launch0.win.arr_inj c _ _ 2
  rw [hA]
  rfl

/-- Element `(b, v, k)` of the result is the voxel's twelve numbers from its thirteen statistics. -/
theorem tail_apply (raw : Vec Ideal S16x13x4096 .f32) (b : Fin 16) (v : Fin 4096) (k : Fin 12) :
    (tail (F := Ideal) raw (ix3 b v k) : EReal) = Cert.Voxel.cell (fun f => (raw (ix3 b f v) : EReal)) k := by
  unfold tail Cert.Voxel.cell
  rw [select_apply, mask_apply, zeros_apply, joined_apply]

end Cert.KernelIdeal.Tail

end
-- ==== Proof.KRun.lean ====
/-
  The idealized kernel program's run, read as values: every execution ends with the result array at the specification's
  function of the input — the region leaves the statistics in its result array (the accumulation over the grid), the host
  lines after it turn each voxel's thirteen statistics into its twelve numbers — and with the input unchanged.
-/
import proofs.«174219_j62826781606551_1_alg».proof.Proof.KFlush
import proofs.«174219_j62826781606551_1_alg».proof.Proof.KTail

noncomputable section

open scoped BigOperators

namespace Cert.KernelIdeal.Run

open Idealize.ShloMosaic Idealize.ShloMosaic.TcCoe Idealize.ShloMosaic.ValueIdx Idealize.SL.Sem Cert.KernelIdeal Cert.KernelIdeal.Gen
open Cert.KernelIdeal.Blocks

variable (m : (ℓ : Loc nD τ sig) → Buf (Elt Ideal) ℓ) (ρ : Dev nD → PrngReg)

/-- The result buffer is none of the region's three arrays. -/
theorem result_rest : main_v61 ∈ Pipeline.restRefs sig spec0 :=
  Pipeline.mem_restRefs_of main_v61 rfl (fun w => by fin_cases w <;> decide)

/-- The host lines applied to the statistics are the specification's result. -/
theorem tail_raw (x : FVec Ideal Cert.Voxel.S16x262144x3 .f32) :
    Cert.KernelIdeal.Tail.tail (F := Ideal) (Cert.KernelIdeal.Flush.raw x) = Cert.Voxel.result (Cert.Voxel.voxId x) x := by
  funext i
  obtain ⟨b, v, k, rfl⟩ : ∃ (b : Fin 16) (v : Fin 4096) (k : Fin 12), i = ix3 b v k := ⟨i 0, i 1, i 2, eq_ix3 i⟩
  exact Cert.KernelIdeal.Tail.tail_apply (Cert.KernelIdeal.Flush.raw x) b v k

/-- The run: the result array at the specification's function of the input, the input unchanged. -/
theorem run : θ_run defs (onTc (τ := τ) (main (F := Ideal))) ⟨m, fun _ => 0, ρ⟩ (fun r => ∀ c : Dev nD,
      r.2.mem ((c.tc : Thread nD τ).loc main_v61) = Cert.Voxel.result (Cert.Voxel.voxId (xin m c)) (xin m c)
      ∧ r.2.mem ((c.tc : Thread nD τ).loc main_arg0) = m ((c.tc : Thread nD τ).loc main_arg0)) :=
  (θ_run defs _ _).mono (fun r h c =>
      ⟨((h c).2 main_v61 result_rest).trans ((Cert.KernelIdeal.Tail.tail_result m c).trans
          ((congrArg Cert.KernelIdeal.Tail.tail (Cert.KernelIdeal.Flush.final m c)).trans (tail_raw (xin m c)))),
        ((h c).1 0).trans (((dats m 0 c).arrAt_in 0 rfl _).trans ((A_eq m c 0).trans (V_main_arg0 m c)))⟩)
    (run_main m ρ)

end Cert.KernelIdeal.Run

end
-- ==== Proof.RefFrame.lean ====
/-
  The reference's run: every execution of its @main ends with the result at the composed term of the argument, which is
  the last of the stages the host lines compute one after the other; so in particular its argument array is unchanged.
-/
import proofs.«174219_j62826781606551_1_alg».proof.Defs
import proofs.«174219_j62826781606551_1_alg».proof.Proof.RefRunP
import proofs.«174219_j62826781606551_1_alg».proof.Proof.RefReadP
import proofs.«174219_j62826781606551_1_alg».proof.Proof.Gen.Pre_finite_inputs

noncomputable section

namespace Cert.Proof.RefClaims

open Idealize.ShloMosaic Idealize.ShloMosaic.TcCoe Idealize.SL.Sem Cert.ReferenceIdeal Cert.ReferenceIdeal.Gen

/-- The term the run states for the result is the last stage, as a function of the argument. -/
theorem result_stage (m : (ℓ : Loc nD τ sig) → Buf (Elt Ideal) ℓ) (c : Dev nD) :
    Cert.ReferenceIdeal.ValueP.res_main_v79 m c
      = Cert.ReferenceIdeal.ReadP.val_main_v79 (F := Ideal) (m ((c.tc : Thread nD τ).loc main_arg0)) := by
  unfold Cert.ReferenceIdeal.ValueP.res_main_v79; rfl

/-- The reference terminates with its argument unchanged: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

end Cert.Proof.RefClaims

end
-- ==== Proof.LibSegmentSum.lean ====
/-
  A general lemma about the host's accumulating scatter at the ideal instance, for the dimension numbers jax's
  `segment_sum` lowers to: the scatter indices are a column `[N, 1]` of row numbers, update `p` (a scalar, or a whole row
  of `C` entries) is added to row `idx p` of the operand, and an update whose row number is negative or past the last row is
  dropped. Read at an element: the operand's element plus the sum of the updates whose row number is that element's row.
-/
import Idealize.ShloMosaic.PureOps.Ideal
import Idealize.ShloMosaic.Lib.ValueIdx

noncomputable section

open scoped BigOperators

namespace Cert.Lib.SegmentSum

open Idealize.ShloMosaic Idealize.ShloMosaic.ValueIdx

/-- The dimension numbers of a scatter of `N` scalars into a vector of `M` entries by a column of row numbers. -/
abbrev dims1 (M N : Nat) (wf : ScatterDims.WF ⟨1, ![M]⟩ ⟨2, ![N, 1]⟩ ⟨1, ![N]⟩ [] [0] [0] 1) :
    ScatterDims ⟨1, ![M]⟩ ⟨2, ![N, 1]⟩ ⟨1, ![N]⟩ where
  updateWindowDims := []
  insertedWindowDims := [0]
  scatterDimsToOperandDims := [0]
  indexVectorDim := 1
  wf := wf

/-- The dimension numbers of a scatter of `N` rows of `C` entries into an `[M, C]` array by a column of row numbers. -/
abbrev dims2 (M N C : Nat) (wf : ScatterDims.WF ⟨2, ![M, C]⟩ ⟨2, ![N, 1]⟩ ⟨2, ![N, C]⟩ [1] [0] [0] 1) :
    ScatterDims ⟨2, ![M, C]⟩ ⟨2, ![N, 1]⟩ ⟨2, ![N, C]⟩ where
  updateWindowDims := [1]
  insertedWindowDims := [0]
  scatterDimsToOperandDims := [0]
  indexVectorDim := 1
  wf := wf

/-- An update lands on operand index `i` exactly when, on every axis, its start plus its window coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    split_ifs at h with hh
    have h2 := congrArg Fin.val (congrFun (Option.some.inj h) a)
    simp only at h2
    have := hh a
    omega
  · intro h
    have hh : ∀ a, 0 ≤ d.start j idx a + d.window j a ∧ d.start j idx a + d.window j a < s.size a := by
      intro a; have := h a; have := (i a).isLt; omega
    rw [dif_pos hh]
    refine congrArg some ?_
    funext a; refine Fin.ext ?_
    have := h a
    simp only
    omega

/-- A rank-1 index set is its one coordinate's range … -/
def idxEquiv1 {n : Nat} : (⟨1, ![n]⟩ : Shape).Idx ≃ Fin n where
  toFun i := i 0
  invFun := ix1
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

section one
variable {M N w : Nat} (wf : ScatterDims.WF ⟨1, ![M]⟩ ⟨2, ![N, 1]⟩ ⟨1, ![N]⟩ [] [0] [0] 1)

/-- Scalars, axis 0: the start is the row number the column holds at the update's position. -/
theorem start1 (j : (⟨1, ![N]⟩ : Shape).Idx) (idx : IVec ⟨2, ![N, 1]⟩ w) :
    (dims1 M N wf).start j idx 0 = (idx (ix2 (j 0) (0 : Fin 1))).toInt := by
  unfold ScatterDims.start
  rw [dif_pos (show (0 : Fin 1) ∈ (dims1 M N wf).scatterDimsToOperandDims from List.mem_singleton.mpr rfl)]
  have hsi : (dims1 M N wf).siIdx j ⟨List.idxOf (0 : Fin 1) (dims1 M N wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- Scalars, axis 0 is an inserted axis: no window coordinate. -/
theorem window1 (j : (⟨1, ![N]⟩ : Shape).Idx) : (dims1 M N wf).window j 0 = 0 := by
  unfold ScatterDims.window
  have hn : ¬ (0 : Fin 1) ∈ (dims1 M N wf).sKept := fun h => by
    have h2 : decide ((0 : Fin 1) ∉ [(0 : Fin 1)]) = true := (List.mem_filter.1 h).2
    exact absurd h2 (by decide)
  rw [dif_neg hn]

/-- Scalars: update `j` lands on entry `s` exactly when the row number at `j` is `s`. -/
theorem lands1 (j : (⟨1, ![N]⟩ : Shape).Idx) (idx : IVec ⟨2, ![N, 1]⟩ w) (s : Fin M) :
    (dims1 M N wf).resultIdx? j idx = some (ix1 s) ↔ (idx (ix2 (j 0) (0 : Fin 1))).toInt = (s.val : Int) := by
  rw [resultIdx?_eq_some_iff]
  constructor
  · intro h
    have := h 0
    rw [start1, window1, Nat.cast_zero, add_zero] at this
    exact this
  · intro h a
    obtain rfl : a = 0 := Subsingleton.elim _ _
    rw [start1, window1, Nat.cast_zero, add_zero]
    exact h

end one

/-- Scalars scattered by row number, read at entry `s`: the operand's entry plus the updates whose row number is `s`. -/
theorem scalars_apply {M N w : Nat} (wf : ScatterDims.WF ⟨1, ![M]⟩ ⟨2, ![N, 1]⟩ ⟨1, ![N]⟩ [] [0] [0] 1)
    (x : (⟨1, ![M]⟩ : Shape).Idx → EReal) (idx : IVec ⟨2, ![N, 1]⟩ w) (upd : (⟨1, ![N]⟩ : Shape).Idx → EReal) (s : Fin M) :
    Ideal.hostScatterAdd (dims1 M N wf) x idx upd (ix1 s)
      = x (ix1 s) + ∑ p : Fin N, if (idx (ix2 p (0 : Fin 1))).toInt = (s.val : Int) then upd (ix1 p) else 0 := by
  unfold Ideal.hostScatterAdd
  refine congrArg (x (ix1 s) + ·) ?_
  rw [Finset.sum_filter, sum_idx1]
  refine Finset.sum_congr rfl (fun p _ => ?_)
  exact if_congr (lands1 wf (ix1 p) idx s) rfl rfl

section two
variable {M N C w : Nat} (wf : ScatterDims.WF ⟨2, ![M, C]⟩ ⟨2, ![N, 1]⟩ ⟨2, ![N, C]⟩ [1] [0] [0] 1)

/-- Rows, axis 0: the start is the row number the column holds at the update's row. -/
theorem start2_0 (j : (⟨2, ![N, C]⟩ : Shape).Idx) (idx : IVec ⟨2, ![N, 1]⟩ w) :
    (dims2 M N C wf).start j idx 0 = (idx (ix2 (j 0) (0 : Fin 1))).toInt := by
  unfold ScatterDims.start
  rw [dif_pos (show (0 : Fin 2) ∈ (dims2 M N C wf).scatterDimsToOperandDims from List.mem_singleton.mpr rfl)]
  have hsi : (dims2 M N C wf).siIdx j ⟨List.idxOf (0 : Fin 2) (dims2 M N C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- Rows, axis 1 is not named by the map from index components to operand axes: the start is 0. -/
theorem start2_1 (j : (⟨2, ![N, C]⟩ : Shape).Idx) (idx : IVec ⟨2, ![N, 1]⟩ w) :
    (dims2 M N C wf).start j idx 1 = 0 := by
  unfold ScatterDims.start
  have hn : ¬ (1 : Fin 2) ∈ (dims2 M N C wf).scatterDimsToOperandDims := fun h => by
    have h2 : (1 : Fin 2) ∈ [(0 : Fin 2)] := h
    exact absurd h2 (by decide)
  rw [dif_neg hn]

/-- Rows, axis 0 is an inserted axis: no window coordinate. -/
theorem window2_0 (j : (⟨2, ![N, C]⟩ : Shape).Idx) : (dims2 M N C wf).window j 0 = 0 := by
  unfold ScatterDims.window
  have hn : ¬ (0 : Fin 2) ∈ (dims2 M N C wf).sKept := fun h => by
    have h2 : decide ((0 : Fin 2) ∉ [(0 : Fin 2)]) = true := (List.mem_filter.1 h).2
    exact absurd h2 (by decide)
  rw [dif_neg hn]

/-- Rows, axis 1 is the one kept axis: the window coordinate is the update's column. -/
theorem window2_1 (j : (⟨2, ![N, C]⟩ : Shape).Idx) : (dims2 M N C wf).window j 1 = (j 1).val := by
  unfold ScatterDims.window
  have hp : (1 : Fin 2) ∈ (dims2 M N C wf).sKept :=
    List.mem_filter.2 ⟨List.mem_finRange _, (by decide : decide ((1 : Fin 2) ∉ [(0 : Fin 2)]) = true)⟩
  rw [dif_pos hp]
  rfl

/-- Rows: update `(p, c)` lands on entry `(s, a)` exactly when the row number at `p` is `s` and the column `c` is `a`. -/
theorem lands2 (j : (⟨2, ![N, C]⟩ : Shape).Idx) (idx : IVec ⟨2, ![N, 1]⟩ w) (s : Fin M) (a : Fin C) :
    (dims2 M N C wf).resultIdx? j idx = some (ix2 s a)
      ↔ (idx (ix2 (j 0) (0 : Fin 1))).toInt = (s.val : Int) ∧ j 1 = a := by
  rw [resultIdx?_eq_some_iff]
  constructor
  · intro h
    have h0 := h 0
    have h1 := h 1
    rw [start2_0, window2_0, Nat.cast_zero, add_zero] at h0
    rw [start2_1, window2_1, zero_add] at h1
    exact ⟨h0, Fin.ext (Int.ofNat.inj h1)⟩
  · rintro ⟨h0, h1⟩ b
    match b with
    | ⟨0, _⟩ =>
      show (dims2 M N C wf).start j idx 0 + ((dims2 M N C wf).window j 0 : Int) = _
      rw [start2_0, window2_0, Nat.cast_zero, add_zero]
      exact h0
    | ⟨1, _⟩ =>
      show (dims2 M N C wf).start j idx 1 + ((dims2 M N C wf).window j 1 : Int) = _
      rw [start2_1, window2_1, zero_add, h1]

end two

/-- Rows scattered by row number, read at entry `(s, a)`: the operand's entry plus entry `a` of the rows whose row number is `s`. -/
theorem rows_apply {M N C w : Nat} (wf : ScatterDims.WF ⟨2, ![M, C]⟩ ⟨2, ![N, 1]⟩ ⟨2, ![N, C]⟩ [1] [0] [0] 1)
    (x : (⟨2, ![M, C]⟩ : Shape).Idx → EReal) (idx : IVec ⟨2, ![N, 1]⟩ w) (upd : (⟨2, ![N, C]⟩ : Shape).Idx → EReal)
    (s : Fin M) (a : Fin C) :
    Ideal.hostScatterAdd (dims2 M N C wf) x idx upd (ix2 s a)
      = x (ix2 s a) + ∑ p : Fin N, if (idx (ix2 p (0 : Fin 1))).toInt = (s.val : Int) then upd (ix2 p a) else 0 := by
  unfold Ideal.hostScatterAdd
  refine congrArg (x (ix2 s a) + ·) ?_
  rw [Finset.sum_filter, sum_idx2]
  refine Finset.sum_congr rfl (fun p _ => ?_)
  have hc : ∀ c : Fin C, (if (dims2 M N C wf).resultIdx? (ix2 p c) idx = some (ix2 s a) then upd (ix2 p c) else 0)
      = if (idx (ix2 p (0 : Fin 1))).toInt = (s.val : Int) ∧ c = a then upd (ix2 p c) else 0 :=
    fun c => if_congr (lands2 wf (ix2 p c) idx s a) rfl rfl
  rw [Finset.sum_congr rfl (fun c _ => hc c)]
  by_cases hT : (idx (ix2 p (0 : Fin 1))).toInt = (s.val : Int)
  · simp only [hT, true_and, if_true, Finset.sum_ite_eq', Finset.mem_univ]
  · simp only [hT, false_and, if_false, Finset.sum_const_zero]

end Cert.Lib.SegmentSum

end
-- ==== Proof.RScatter.lean ====
/-
  The reference's three scatters, read at a row. The scatter indices are the segment numbers `vox (b, n) + 4096 · b` of
  the `16 · 262144` points in row-major order; the voxel ids are below 4096, so the segment number `4096 · b + v` is hit by
  exactly the points of batch `b` whose voxel id is `v`. The updates are the constant one (the counts), the points'
  coordinates (the sums) and the nine products of a point's coordinates (the product sums); the operands are zero. So
  row `4096 · b + v` of the three results holds the thirteen statistics of voxel `v` of batch `b`.
-/
import proofs.«174219_j62826781606551_1_alg».proof.Proof.RefReadP
import proofs.«174219_j62826781606551_1_alg».proof.Proof.Spec
import proofs.«174219_j62826781606551_1_alg».proof.Proof.Head
import proofs.«174219_j62826781606551_1_alg».proof.Proof.LibSegmentSum
import Idealize.ShloMosaic.Lib.ValueIdx
import Idealize.ShloMosaic.Lib.Pipeline.Value
import Idealize.ShloMosaic.PureOps.Ideal.Laws

noncomputable section

open scoped BigOperators

namespace Cert.ReferenceIdeal.Scatter

open Idealize.ShloMosaic Idealize.ShloMosaic.ValueIdx Cert.ReferenceIdeal Cert.ReferenceIdeal.Gen Cert.ReferenceIdeal.ReadP

/-- The reference's voxel ids are the same lines as the kernel program's. -/
theorem vox_eq (x0 : FVec Ideal Cert.Voxel.S16x262144x3 .f32) :
    val_main_v27 (F := Ideal) x0 = Cert.Voxel.voxId x0 := by
  unfold val_main_v27 val_main_v26 val_main_v25 val_main_v24 val_main_v23 val_main_v22 val_main_v21 val_main_v20 val_main_v19 val_main_v18 val_main_v17 val_main_v16 val_main_v15 val_main_v14
  unfold Cert.Voxel.voxId Cert.Voxel.cellsOf Cert.Voxel.cells
  rfl

/-- The segment number of voxel `v` of batch `b`. -/
abbrev row (b : Fin 16) (v : Fin 4096) : Fin 65536 := ⟨b.val * 4096 + v.val, by have := b.isLt; have := v.isLt; omega⟩

/-- Point `n` of batch `b` in the row-major order of the `16 · 262144` points. -/
abbrev pt (b : Fin 16) (n : Fin 262144) : Fin 4194304 := ⟨b.val * 262144 + n.val, by have := b.isLt; have := n.isLt; omega⟩

/-- The batch of point `p`. -/
abbrev bOf (p : Fin 4194304) : Fin 16 := ⟨p.val / 262144, by have := p.isLt; omega⟩

/-- The position of point `p` within its batch. -/
abbrev nOf (p : Fin 4194304) : Fin 262144 := ⟨p.val % 262144, by omega⟩

/-- The points in row-major order are the pairs (batch, position). -/
def ptEquiv : Fin 16 × Fin 262144 ≃ Fin 4194304 where
  toFun q := pt q.1 q.2
  invFun p := (bOf p, nOf p)
  left_inv q := by
    have h1 := q.1.isLt; have h2 := q.2.isLt
    refine Prod.ext (Fin.ext ?_) (Fin.ext ?_)
    · show (q.1.val * 262144 + q.2.val) / 262144 = q.1.val; omega
    · show (q.1.val * 262144 + q.2.val) % 262144 = q.2.val; omega
  right_inv p := by
    refine Fin.ext ?_
    show p.val / 262144 * 262144 + p.val % 262144 = p.val; omega

/-- A sum over the points is the double sum over batches and positions. -/
theorem sum_pt {A : Type*} [AddCommMonoid A] (f : Fin 4194304 → A) :
    ∑ p, f p = ∑ b : Fin 16, ∑ n : Fin 262144, f (pt b n) := by
  rw [← Equiv.sum_comp ptEquiv f, Fintype.sum_prod_type]
  rfl

/-- The segment word `w + 4096 · b'` of a voxel id `w < 4096` of batch `b' < 16` does not wrap, and read as a signed
    integer it is the segment number `4096 · b + v` exactly when `b' = b` and `w` is the word `v`. -/
theorem seg_word_iff (w : BitVec 32) (hw : w.toNat < 4096) (b' b : Fin 16) (v : Fin 4096) :
    (w + BitVec.ofNat 32 b'.val * 4096#32).toInt = (((row b v).val : Nat) : Int) ↔ b' = b ∧ w = BitVec.ofNat 32 v.val := by
  have hb' := b'.isLt; have hb := b.isLt; have hv := v.isLt
  have hn : (w + BitVec.ofNat 32 b'.val * 4096#32).toNat = w.toNat + b'.val * 4096 := by
    simp only [BitVec.toNat_add, BitVec.toNat_mul, BitVec.toNat_ofNat]
    omega
  have hi : (w + BitVec.ofNat 32 b'.val * 4096#32).toInt = ((w.toNat + b'.val * 4096 : Nat) : Int) := by
    rw [BitVec.toInt_eq_toNat_of_lt (by rw [hn]; omega), hn]
  rw [hi]
  constructor
  · intro h
    have h2 : w.toNat + b'.val * 4096 = b.val * 4096 + v.val := by exact_mod_cast h
    refine ⟨Fin.ext (by omega), ?_⟩
    apply BitVec.eq_of_toNat_eq
    rw [BitVec.toNat_ofNat]
    omega
  · rintro ⟨rfl, rfl⟩
    rw [BitVec.toNat_ofNat]
    have : v.val % 2 ^ 32 = v.val := Nat.mod_eq_of_lt (by omega)
    rw [this]
    push_cast
    ring

theorem bOf_pt (b : Fin 16) (n : Fin 262144) : bOf (pt b n) = b := by
  have h1 := b.isLt; have h2 := n.isLt
  refine Fin.ext ?_
  show (b.val * 262144 + n.val) / 262144 = b.val; omega

theorem nOf_pt (b : Fin 16) (n : Fin 262144) : nOf (pt b n) = n := by
  have h1 := b.isLt; have h2 := n.isLt
  refine Fin.ext ?_
  show (b.val * 262144 + n.val) % 262144 = n.val; omega

/-- The segment word of point `p`: its voxel id plus `4096` times its batch, in 32-bit arithmetic. -/
theorem seg_word (x0 : FVec Ideal Cert.Voxel.S16x262144x3 .f32) (p : Fin 4194304) :
    val_main_v34 (F := Ideal) x0 (ix1 p)
      = Cert.Voxel.voxId x0 (ix2 (bOf p) (nOf p)) + BitVec.ofNat 32 (bOf p).val * 4096#32 := by
  rw [val_main_v34_apply, val_main_v33_apply, val_main_v32_apply, val_main_v31_apply, val_main_v29_apply,
    val_main_v28_apply, val_main_v30_apply, val_main_c_6_apply, vox_eq]
  have h : idx_main_v34 (ix1 p) = ix2 (bOf p) (nOf p) := by
    funext a; match a with | ⟨0, _⟩ => rfl | ⟨1, _⟩ => rfl
  rw [h]
  rfl

/-- The scatter indices are a column of the segment words. -/
theorem col_word (x0 : FVec Ideal Cert.Voxel.S16x262144x3 .f32) (p : Fin 4194304) :
    val_main_v38 (F := Ideal) x0 (ix2 p (0 : Fin 1)) = val_main_v34 (F := Ideal) x0 (ix1 p) := by
  rw [val_main_v38_apply]
  refine congrArg _ ?_
  funext a; match a with | ⟨0, _⟩ => rfl

/-- The updates whose segment word is the segment number of voxel `v` of batch `b` are those of the points of batch `b`
    whose voxel id is `v`. -/
theorem seg_sum (x0 : FVec Ideal Cert.Voxel.S16x262144x3 .f32) (idx : IVec (⟨2, ![4194304, 1]⟩ : Shape) 32)
    (hidx : ∀ p : Fin 4194304, idx (ix2 p (0 : Fin 1)) = val_main_v34 (F := Ideal) x0 (ix1 p))
    (G : Fin 4194304 → EReal) (b : Fin 16) (v : Fin 4096) :
    (∑ p : Fin 4194304, if (idx (ix2 p (0 : Fin 1))).toInt = (((row b v).val : Nat) : Int) then G p else 0)
      = ∑ n : Fin 262144, if Cert.Voxel.voxId x0 (ix2 b n) = BitVec.ofNat 32 v.val then G (pt b n) else 0 := by
  have key : ∀ (b' : Fin 16) (n : Fin 262144),
      ((idx (ix2 (pt b' n) (0 : Fin 1))).toInt = (((row b v).val : Nat) : Int))
        ↔ (b' = b ∧ Cert.Voxel.voxId x0 (ix2 b' n) = BitVec.ofNat 32 v.val) := by
    intro b' n
    rw [hidx, seg_word, bOf_pt, nOf_pt]
    exact seg_word_iff _ (Cert.Voxel.voxId_lt x0 _) b' b v
  rw [sum_pt, Finset.sum_eq_single b]
  · refine Finset.sum_congr rfl fun n _ => ?_
    refine if_congr ?_ rfl rfl
    rw [key]
    exact ⟨fun h => h.2, fun h => ⟨rfl, h⟩⟩
  · intro b' _ hb'
    refine Finset.sum_eq_zero fun n _ => ?_
    rw [if_neg]
    rw [key]
    exact fun h => hb' h.1
  · intro h
    exact absurd (Finset.mem_univ b) h

/-- The zero the counts start from. -/
theorem zero37 (i : S65536.Idx) : (val_main_v37 (F := Ideal) i : EReal) = 0 := by
  rw [val_main_v37_apply, val_main_cst_8_apply]
  exact Ideal.ofBits_zero_f32

/-- The zero the sums start from. -/
theorem zero40 (i : S65536x3.Idx) : (val_main_v40 (F := Ideal) i : EReal) = 0 := by
  rw [val_main_v40_apply, val_main_cst_9_apply]
  exact Ideal.ofBits_zero_f32

/-- The zero the product sums start from. -/
theorem zero49 (i : S65536x9.Idx) : (val_main_v49 (F := Ideal) i : EReal) = 0 := by
  rw [val_main_v49_apply, val_main_cst_10_apply]
  exact Ideal.ofBits_zero_f32

/-- The sums' scatter indices are the same column. -/
theorem col_word41 (x0 : FVec Ideal Cert.Voxel.S16x262144x3 .f32) (p : Fin 4194304) :
    val_main_v41 (F := Ideal) x0 (ix2 p (0 : Fin 1)) = val_main_v34 (F := Ideal) x0 (ix1 p) := by
  rw [val_main_v41_apply]
  refine congrArg _ ?_
  funext a; match a with | ⟨0, _⟩ => rfl

/-- The product sums' scatter indices are the same column. -/
theorem col_word50 (x0 : FVec Ideal Cert.Voxel.S16x262144x3 .f32) (p : Fin 4194304) :
    val_main_v50 (F := Ideal) x0 (ix2 p (0 : Fin 1)) = val_main_v34 (F := Ideal) x0 (ix1 p) := by
  rw [val_main_v50_apply]
  refine congrArg _ ?_
  funext a; match a with | ⟨0, _⟩ => rfl

/-- Feature `0` is the constant one. -/
theorem feat_zero (P : Fin 3 → EReal) : Cert.Voxel.feat P 0 = Cert.Voxel.one := by
  unfold Cert.Voxel.feat
  exact if_pos rfl

/-- Feature `1 + a` is coordinate `a`. -/
theorem feat_coord (P : Fin 3 → EReal) (a : Fin 3) (h : 1 + a.val < 13) :
    Cert.Voxel.feat P ⟨1 + a.val, h⟩ = P a := by
  have ha := a.isLt
  unfold Cert.Voxel.feat
  split_ifs with h1 h2
  · have h1' : 1 + a.val = 0 := h1
    omega
  · refine congrArg P (Fin.ext ?_)
    show 1 + a.val - 1 = a.val
    omega
  · have h2' : ¬ (1 + a.val < 4) := h2
    omega

/-- Feature `4 + q` is the product of coordinates `q / 3` and `q % 3`. -/
theorem feat_prod (P : Fin 3 → EReal) (q : Fin 9) (h : 4 + q.val < 13) :
    Cert.Voxel.feat P ⟨4 + q.val, h⟩
      = P ⟨q.val / 3, by have := q.isLt; omega⟩ * P ⟨q.val % 3, Nat.mod_lt _ (by decide)⟩ := by
  have hq := q.isLt
  unfold Cert.Voxel.feat
  split_ifs with h1 h2
  · have h1' : 4 + q.val = 0 := h1
    omega
  · have h2' : 4 + q.val < 4 := h2
    omega
  · have e1 : (⟨(4 + q.val - 4) / 3, by omega⟩ : Fin 3) = ⟨q.val / 3, by omega⟩ := Fin.ext (by show (4 + q.val - 4) / 3 = q.val / 3; omega)
    have e2 : (⟨(4 + q.val - 4) % 3, Nat.mod_lt _ (by decide)⟩ : Fin 3) = ⟨q.val % 3, Nat.mod_lt _ (by decide)⟩ :=
      Fin.ext (by show (4 + q.val - 4) % 3 = q.val % 3; omega)
    exact congrArg₂ (fun s t => P s * P t) e1 e2

/-- The counts. -/
theorem counts_apply (x0 : FVec Ideal Cert.Voxel.S16x262144x3 .f32) (b : Fin 16) (v : Fin 4096) :
    (val_main_v39 (F := Ideal) x0 (ix1 (row b v)) : EReal)
      = Cert.Voxel.stat (Cert.Voxel.voxId x0) x0 b v 0 := by
  have h39 : val_main_v39 (F := Ideal) x0
      = Ideal.hostScatterAdd (Cert.Lib.SegmentSum.dims1 65536 4194304 scatter_S65536_S4194304x1_S4194304_n_0_0_1_wf)
          (val_main_v37 (F := Ideal)) (val_main_v38 (F := Ideal) x0) (val_main_v36 (F := Ideal)) := rfl
  rw [h39, Cert.Lib.SegmentSum.scalars_apply, zero37, zero_add]
  refine (seg_sum x0 (val_main_v38 (F := Ideal) x0) (col_word x0) (fun p => val_main_v36 (F := Ideal) (ix1 p)) b v).trans ?_
  unfold Cert.Voxel.stat
  refine Finset.sum_congr rfl fun n _ => ?_
  refine if_congr Iff.rfl ?_ rfl
  rw [feat_zero, val_main_v36_apply, val_main_cst_7_apply]
  rfl

/-- The sums' update of point `p`, column `a`: the reshaped input is coordinate `a` of the point. -/
theorem upd35 (x0 : FVec Ideal Cert.Voxel.S16x262144x3 .f32) (p : Fin 4194304) (a : Fin 3) :
    (val_main_v35 (F := Ideal) x0 (ix2 p a) : EReal) = x0 (ix3 (bOf p) (nOf p) a) := by
  have hp := p.isLt; have ha := a.isLt
  rw [val_main_v35_apply]
  refine congrArg x0 ?_
  funext d
  match d with
  | ⟨0, _⟩ => exact Fin.ext (by show (p.val * 3 + a.val) / 786432 = p.val / 262144; omega)
  | ⟨1, _⟩ => exact Fin.ext (by show (p.val * 3 + a.val) / 3 % 262144 = p.val % 262144; omega)
  | ⟨2, _⟩ => exact Fin.ext (by show (p.val * 3 + a.val) % 3 = a.val; omega)

/-- The coordinate sums. -/
theorem sums_apply (x0 : FVec Ideal Cert.Voxel.S16x262144x3 .f32) (b : Fin 16) (v : Fin 4096) (a : Fin 3) :
    (val_main_v42 (F := Ideal) x0 (ix2 (row b v) a) : EReal)
      = Cert.Voxel.stat (Cert.Voxel.voxId x0) x0 b v ⟨1 + a.val, by have := a.isLt; omega⟩ := by
  have h42 : val_main_v42 (F := Ideal) x0
      = Ideal.hostScatterAdd (Cert.Lib.SegmentSum.dims2 65536 4194304 3 scatter_S65536x3_S4194304x1_S4194304x3_1_0_0_1_wf)
          (val_main_v40 (F := Ideal)) (val_main_v41 (F := Ideal) x0) (val_main_v35 (F := Ideal) x0) := rfl
  rw [h42, Cert.Lib.SegmentSum.rows_apply, zero40, zero_add]
  refine (seg_sum x0 (val_main_v41 (F := Ideal) x0) (col_word41 x0) (fun p => val_main_v35 (F := Ideal) x0 (ix2 p a)) b v).trans ?_
  unfold Cert.Voxel.stat
  refine Finset.sum_congr rfl fun n _ => ?_
  refine if_congr Iff.rfl ?_ rfl
  rw [feat_coord]
  show (val_main_v35 (F := Ideal) x0 (ix2 (pt b n) a) : EReal) = x0 (ix3 b n a)
  rw [upd35, bOf_pt, nOf_pt]

/-- The product sums' update of point `p`, column `q`: the product of the point's coordinates `q / 3` and `q % 3`. -/
theorem upd48 (x0 : FVec Ideal Cert.Voxel.S16x262144x3 .f32) (p : Fin 4194304) (q : Fin 9) :
    (val_main_v48 (F := Ideal) x0 (ix2 p q) : EReal)
      = x0 (ix3 (bOf p) (nOf p) (⟨q.val / 3, by have := q.isLt; omega⟩ : Fin 3))
        * x0 (ix3 (bOf p) (nOf p) (⟨q.val % 3, Nat.mod_lt _ (by decide)⟩ : Fin 3)) := by
  have hp := p.isLt; have hq := q.isLt
  rw [val_main_v48_apply, val_main_v47_apply, val_main_v45_apply, val_main_v43_apply, val_main_v46_apply,
    val_main_v44_apply, val_main_v35_apply, val_main_v35_apply]
  have e1 : idx_main_v35 (idx_main_v43 (idx_main_v45 (idx_main_v48 (ix2 p q))))
      = ix3 (bOf p) (nOf p) (⟨q.val / 3, by omega⟩ : Fin 3) := by
    funext d
    match d with
    | ⟨0, _⟩ => exact Fin.ext (by show ((p.val * 9 + q.val) / 9 * 3 + (p.val * 9 + q.val) / 3 % 3) / 786432 = p.val / 262144; omega)
    | ⟨1, _⟩ => exact Fin.ext (by show ((p.val * 9 + q.val) / 9 * 3 + (p.val * 9 + q.val) / 3 % 3) / 3 % 262144 = p.val % 262144; omega)
    | ⟨2, _⟩ => exact Fin.ext (by show ((p.val * 9 + q.val) / 9 * 3 + (p.val * 9 + q.val) / 3 % 3) % 3 = q.val / 3; omega)
  have e2 : idx_main_v35 (idx_main_v44 (idx_main_v46 (idx_main_v48 (ix2 p q))))
      = ix3 (bOf p) (nOf p) (⟨q.val % 3, Nat.mod_lt _ (by decide)⟩ : Fin 3) := by
    funext d
    match d with
    | ⟨0, _⟩ => exact Fin.ext (by show ((p.val * 9 + q.val) / 9 * 3 + (p.val * 9 + q.val) % 3) / 786432 = p.val / 262144; omega)
    | ⟨1, _⟩ => exact Fin.ext (by show ((p.val * 9 + q.val) / 9 * 3 + (p.val * 9 + q.val) % 3) / 3 % 262144 = p.val % 262144; omega)
    | ⟨2, _⟩ => exact Fin.ext (by show ((p.val * 9 + q.val) / 9 * 3 + (p.val * 9 + q.val) % 3) % 3 = q.val % 3; omega)
  rw [e1, e2]
  rfl

/-- The product sums. -/
theorem sq_apply (x0 : FVec Ideal Cert.Voxel.S16x262144x3 .f32) (b : Fin 16) (v : Fin 4096) (q : Fin 9) :
    (val_main_v51 (F := Ideal) x0 (ix2 (row b v) q) : EReal)
      = Cert.Voxel.stat (Cert.Voxel.voxId x0) x0 b v ⟨4 + q.val, by have := q.isLt; omega⟩ := by
  have h51 : val_main_v51 (F := Ideal) x0
      = Ideal.hostScatterAdd (Cert.Lib.SegmentSum.dims2 65536 4194304 9 scatter_S65536x9_S4194304x1_S4194304x9_1_0_0_1_wf)
          (val_main_v49 (F := Ideal)) (val_main_v50 (F := Ideal) x0) (val_main_v48 (F := Ideal) x0) := rfl
  rw [h51, Cert.Lib.SegmentSum.rows_apply, zero49, zero_add]
  refine (seg_sum x0 (val_main_v50 (F := Ideal) x0) (col_word50 x0) (fun p => val_main_v48 (F := Ideal) x0 (ix2 p q)) b v).trans ?_
  unfold Cert.Voxel.stat
  refine Finset.sum_congr rfl fun n _ => ?_
  refine if_congr Iff.rfl ?_ rfl
  rw [feat_prod]
  show (val_main_v48 (F := Ideal) x0 (ix2 (pt b n) q) : EReal)
    = x0 (ix3 b n (⟨q.val / 3, by have := q.isLt; omega⟩ : Fin 3)) * x0 (ix3 b n (⟨q.val % 3, Nat.mod_lt _ (by decide)⟩ : Fin 3))
  rw [upd48, bOf_pt, nOf_pt]

end Cert.ReferenceIdeal.Scatter

end
-- ==== Proof.RTail.lean ====
/-
  The reference's lines after the scatters, read at an element: the same arithmetic as the kernel program's, on arrays
  with the batch and voxel axes flattened into `65536 = 16 · 4096` rows, and a final reshape to `[16, 4096, 12]`. Element
  `(b, v, k)` of the result is row `4096 · b + v`, column `k`, which is `Voxel.cell` of the row's thirteen statistics.
-/
import proofs.«174219_j62826781606551_1_alg».proof.Proof.RScatter
import Idealize.ShloMosaic.Lib.ValueIdx
import Idealize.ShloMosaic.Lib.ValueLayout
import Idealize.ShloMosaic.Lib.Pipeline.Value

noncomputable section

open scoped BigOperators

namespace Cert.ReferenceIdeal.Tail

open Idealize.ShloMosaic Idealize.ShloMosaic.ValueIdx Cert.ReferenceIdeal Cert.ReferenceIdeal.Gen Cert.ReferenceIdeal.ReadP
open Cert.ReferenceIdeal.Scatter

/-- The row-major position `(4096·b + v)·12 + k` of element `(b, v, k)` is row `4096·b + v`, column `k` of the flattened array. -/
theorem idx79 (b : Fin 16) (v : Fin 4096) (k : Fin 12) :
    idx_main_v79 (ix3 b v k) = ix2 (row b v) k := by
  funext a
  apply Fin.ext
  match a with
  | ⟨0, _⟩ =>
    show ((b.val * 4096 + v.val) * 12 + k.val) / 12 = b.val * 4096 + v.val
    have := k.isLt; omega
  | ⟨1, _⟩ =>
    show ((b.val * 4096 + v.val) * 12 + k.val) % 12 = k.val
    have := k.isLt; omega

/-- The count of a row, clamped below by one, broadcast along the three coordinates. -/
theorem cmax_apply (x0 : FVec Ideal Cert.Voxel.S16x262144x3 .f32) (b : Fin 16) (v : Fin 4096) (a : Fin 3) :
    (val_main_v55 (F := Ideal) x0 (ix2 (row b v) a) : EReal)
      = max (Cert.Voxel.stat (Cert.Voxel.voxId x0) x0 b v 0) Cert.Voxel.one := by
  rw [val_main_v55_apply, val_main_v54_apply, val_main_v53_apply, val_main_v52_apply, val_main_cst_11_apply]
  have e : idx_main_v54 (idx_main_v55 (ix2 (row b v) a)) = ix1 (row b v) := by
    funext d; match d with | ⟨0, _⟩ => rfl
  rw [e, counts_apply]
  rfl

/-- The means: coordinate sum over the clamped count. -/
theorem mean_apply (x0 : FVec Ideal Cert.Voxel.S16x262144x3 .f32) (b : Fin 16) (v : Fin 4096) (a : Fin 3) :
    (val_main_v56 (F := Ideal) x0 (ix2 (row b v) a) : EReal)
      = Cert.Voxel.mean (Cert.Voxel.stat (Cert.Voxel.voxId x0) x0 b v) a := by
  rw [val_main_v56_apply, cmax_apply, sums_apply]
  rfl

/-- Column `q` of the nine products of means is the pair `(q / 3, q % 3)`: its first factor is the mean of coordinate `q / 3`. -/
theorem idxL (r : Fin 65536) (q : Fin 9) :
    idx_main_v57 (idx_main_v59 (idx_main_v62 (ix2 r q)))
      = ix2 r (⟨q.val / 3, by have := q.isLt; omega⟩ : Fin 3) := by
  funext a
  apply Fin.ext
  match a with
  | ⟨0, _⟩ =>
    show (r.val * 9 + q.val) / 9 = r.val
    have := q.isLt; omega
  | ⟨1, _⟩ =>
    show (r.val * 9 + q.val) / 3 % 3 = q.val / 3
    have := q.isLt; omega

/-- The same column's second factor is the mean of coordinate `q % 3`. -/
theorem idxR (r : Fin 65536) (q : Fin 9) :
    idx_main_v58 (idx_main_v60 (idx_main_v62 (ix2 r q)))
      = ix2 r (⟨q.val % 3, Nat.mod_lt _ (by decide)⟩ : Fin 3) := by
  funext a
  apply Fin.ext
  match a with
  | ⟨0, _⟩ =>
    show (r.val * 9 + q.val) / 9 = r.val
    have := q.isLt; omega
  | ⟨1, _⟩ =>
    show (r.val * 9 + q.val) % 3 = q.val % 3
    have := q.isLt; omega

/-- The nine products of two means. -/
theorem mm_apply (x0 : FVec Ideal Cert.Voxel.S16x262144x3 .f32) (b : Fin 16) (v : Fin 4096) (q : Fin 9) :
    (val_main_v62 (F := Ideal) x0 (ix2 (row b v) q) : EReal)
      = Cert.Voxel.mean (Cert.Voxel.stat (Cert.Voxel.voxId x0) x0 b v) ⟨q.val / 3, by have := q.isLt; omega⟩
        * Cert.Voxel.mean (Cert.Voxel.stat (Cert.Voxel.voxId x0) x0 b v) ⟨q.val % 3, Nat.mod_lt _ (by decide)⟩ := by
  rw [val_main_v62_apply, val_main_v61_apply, val_main_v59_apply, val_main_v57_apply, val_main_v60_apply,
    val_main_v58_apply, idxL, idxR, mean_apply, mean_apply]
  rfl

/-- The count of a row broadcast along the nine products. -/
theorem cnt9_apply (x0 : FVec Ideal Cert.Voxel.S16x262144x3 .f32) (b : Fin 16) (v : Fin 4096) (q : Fin 9) :
    (val_main_v69 (F := Ideal) x0 (ix2 (row b v) q) : EReal)
      = Cert.Voxel.stat (Cert.Voxel.voxId x0) x0 b v 0 := by
  rw [val_main_v69_apply, val_main_v68_apply]
  have e : idx_main_v68 (idx_main_v69 (ix2 (row b v) q)) = ix1 (row b v) := by
    funext d; match d with | ⟨0, _⟩ => rfl
  rw [e, counts_apply]

/-- The count less one, clamped below by one, broadcast along the nine products. -/
theorem cm1_apply (x0 : FVec Ideal Cert.Voxel.S16x262144x3 .f32) (b : Fin 16) (v : Fin 4096) (q : Fin 9) :
    (val_main_v72 (F := Ideal) x0 (ix2 (row b v) q) : EReal)
      = max (Cert.Voxel.stat (Cert.Voxel.voxId x0) x0 b v 0 - Cert.Voxel.one) Cert.Voxel.one := by
  rw [val_main_v72_apply, val_main_v67_apply, val_main_v66_apply, val_main_v65_apply, val_main_cst_13_apply,
    val_main_v64_apply, val_main_v63_apply, val_main_cst_12_apply]
  have e : idx_main_v67 (idx_main_v72 (ix2 (row b v) q)) = ix1 (row b v) := by
    funext d; match d with | ⟨0, _⟩ => rfl
  rw [e, counts_apply]
  rfl

/-- The covariances. -/
theorem cov_apply (x0 : FVec Ideal Cert.Voxel.S16x262144x3 .f32) (b : Fin 16) (v : Fin 4096) (q : Fin 9) :
    (val_main_v73 (F := Ideal) x0 (ix2 (row b v) q) : EReal)
      = Cert.Voxel.cov (Cert.Voxel.stat (Cert.Voxel.voxId x0) x0 b v) ⟨q.val / 3, by have := q.isLt; omega⟩
          ⟨q.val % 3, Nat.mod_lt _ (by decide)⟩ := by
  rw [val_main_v73_apply, val_main_v71_apply, val_main_v70_apply, cm1_apply, cnt9_apply, mm_apply, sq_apply]
  unfold Cert.Voxel.cov
  have e : (⟨4 + q.val, by have := q.isLt; omega⟩ : Fin 13) = ⟨4 + 3 * (q.val / 3) + q.val % 3, by have := q.isLt; omega⟩ :=
    Fin.ext (by show 4 + q.val = 4 + 3 * (q.val / 3) + q.val % 3; omega)
  rw [e]
  rfl

/-- The joined row: three means, then nine covariances. -/
theorem cat_apply (x0 : FVec Ideal Cert.Voxel.S16x262144x3 .f32) (b : Fin 16) (v : Fin 4096) (k : Fin 12) :
    (val_main_v77 (F := Ideal) x0 (ix2 (row b v) k) : EReal)
      = Cert.Voxel.dist (Cert.Voxel.stat (Cert.Voxel.voxId x0) x0 b v) k := by
  unfold Cert.Voxel.dist val_main_v77
  by_cases h : k.val < 3
  · rw [dif_pos h]
    refine (concatenate_pair_apply_left (1 : Fin S65536x12.rank) (val_main_v56 (F := Ideal) x0) (val_main_v73 (F := Ideal) x0)
      concatenates_S65536x3_S65536x9_S65536x12_d1 (ix2 (row b v) k) rfl (ix2 (row b v) (⟨k.val, h⟩ : Fin 3))
      (fun d => match d with | ⟨0, _⟩ => rfl | ⟨1, _⟩ => rfl)).trans ?_
    exact mean_apply x0 b v ⟨k.val, h⟩
  · rw [dif_neg h]
    have hk : k.val - 3 < 9 := by have := k.isLt; omega
    refine (concatenate_pair_apply_right (1 : Fin S65536x12.rank) (val_main_v56 (F := Ideal) x0) (val_main_v73 (F := Ideal) x0)
      concatenates_S65536x3_S65536x9_S65536x12_d1 (ix2 (row b v) k) rfl rfl (ix2 (row b v) (⟨k.val - 3, hk⟩ : Fin 9))
      (fun d hd => match d, hd with | ⟨0, _⟩, _ => rfl | ⟨1, _⟩, hd => absurd rfl hd)
      (by show k.val - 3 + 3 = k.val; omega)).trans ?_
    exact cov_apply x0 b v ⟨k.val - 3, hk⟩

/-- The reference's result at `(b, v, k)`. -/
theorem ref_apply (x0 : FVec Ideal Cert.Voxel.S16x262144x3 .f32) (b : Fin 16) (v : Fin 4096) (k : Fin 12) :
    (val_main_v79 (F := Ideal) x0 (ix3 b v k) : EReal)
      = Cert.Voxel.cell (Cert.Voxel.stat (Cert.Voxel.voxId x0) x0 b v) k := by
  rw [val_main_v79_apply, idx79, val_main_v78_apply, cat_apply, val_main_call1_v1_apply, val_main_v76_apply,
    val_main_v75_apply, val_main_v74_apply, val_main_cst_14_apply, val_main_call1_v2_apply, val_main_call1_v0_apply,
    val_main_cst_15_apply]
  have e : idx_main_v76 (idx_main_call1_v1 (ix2 (row b v) k)) = ix1 (row b v) := by
    funext d; match d with | ⟨0, _⟩ => rfl
  rw [e, counts_apply]
  rfl

end Cert.ReferenceIdeal.Tail

end
-- ==== Proof.lean ====
/-
  The certificate of the voxel-statistics kernel against its jnp reference.

  Both programs give every point of a batch a voxel id (the same lines: `Voxel.voxId`), gather per voxel thirteen
  statistics of its points — a count, the three coordinate sums, the nine product sums — and turn them into a mean and a
  covariance per voxel, zeroed where the count is at most one (`Voxel.cell`). They differ in how the statistics are
  gathered. The kernel multiplies, tile by tile of 4096 points, the points' features by the one-hot rows of their voxel
  ids on the matrix unit and accumulates the products over the 64 tiles of a batch; over the extended reals a product with
  a one-hot entry is the feature or zero, so the accumulated product is the sum of the feature over the points whose id is
  the voxel. The reference scatter-adds the features into `16 · 4096` segments numbered `vox + 4096 · batch`; every
  voxel id is below 4096, so a segment collects exactly the same points. Sums over the extended reals may be regrouped, so
  the two agree; the arithmetic after the statistics is the same in both.

  The frames of the two kernel programs are the generated ones; the reference's frame is its run with the result dropped;
  the idealization rewrote nothing.
-/
import proofs.«174219_j62826781606551_1_alg».proof.Defs
import proofs.«174219_j62826781606551_1_alg».proof.Proof.Gen.Kernel.Frame
import proofs.«174219_j62826781606551_1_alg».proof.Proof.Gen.KernelIdeal.Frame
import proofs.«174219_j62826781606551_1_alg».proof.Proof.Gen.Pre_finite_inputs
import proofs.«174219_j62826781606551_1_alg».proof.Proof.KRun
import proofs.«174219_j62826781606551_1_alg».proof.Proof.RefFrame
import proofs.«174219_j62826781606551_1_alg».proof.Proof.RTail
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference's result is the specification's function of its input. -/
theorem ref_result (x : FVec Ideal Cert.Voxel.S16x262144x3 .f32) :
    Cert.ReferenceIdeal.ReadP.val_main_v79 (F := Ideal) x = Cert.Voxel.result (Cert.Voxel.voxId x) x := by
  funext i
  obtain ⟨b, v, k, rfl⟩ : ∃ (b : Fin 16) (v : Fin 4096) (k : Fin 12), i = ix3 b v k := ⟨i 0, i 1, i 2, eq_ix3 i⟩
  exact Cert.ReferenceIdeal.Tail.ref_apply x b v k

/-- Both idealized programs end with the specification's function of the input in their result arrays. -/
theorem algebraic : Cert.algebraic_KernelIdeal_ReferenceIdeal := by
  intro m ρ m' ρ' _ hagree
  refine ⟨fun c => Cert.Voxel.result (Cert.Voxel.voxId (Cert.KernelIdeal.Blocks.xin m c)) (Cert.KernelIdeal.Blocks.xin m c),
    Cert.KernelIdeal.Run.run m ρ, ?_⟩
  refine (θ_run Cert.ReferenceIdeal.defs _ _).mono (fun _ h c => ⟨(h c).1.trans ?_, (h c).2⟩)
    (Cert.ReferenceIdeal.ValueP.run (F := Ideal) m' ρ')
  rw [Cert.Proof.RefClaims.result_stage, hagree c]
  exact ref_result _

theorem claim : Cert.Claim := ⟨Cert.Kernel.Gen.facts, Cert.KernelIdeal.Gen.facts, Cert.ReferenceIdeal.Gen.facts, Cert.Pre_finite_inputs.Gen.facts,
  frame_k, frame_ki, Cert.Proof.RefClaims.frame_ri, trivial, algebraic⟩

end Cert.Proof

end
